-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S64x32 .f32) (main_arg11 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S96x64 .f32) (main_arg6 : FVec F S96x64 .f32) (main_arg7 : FVec F S64 .f32) (main_arg8 : FVec F S64x32 .f32) (main_arg9 : FVec F S32 .f32) (main_arg10 : FVec F S64x32 .f32) (main_arg11 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x64 .f32 := Host.absf main_arg5
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x96 .f32) (main_arg3 : FVec F S128x96 .f32) (main_arg4 : FVec F S96 .f32) (main_arg5 : FVec F S96x64 .f32) (main_arg6 : FVec F S96x64 .f32) (main_arg7 : FVec F S64 .f32) (main_arg8 : FVec F S64x32 .f32) (main_arg9 : FVec F S32 .f32) (main_arg10 : FVec F S64x32 .f32) (main_arg11 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128x96 .f32 := Host.absf main_arg3
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x96 : Shape := ⟨2, ![1, 96]⟩
abbrev S50000x96 : Shape := ⟨2, ![50000, 96]⟩
abbrev S5000x128 : Shape := ⟨2, ![5000, 128]⟩
abbrev S5000x96 : Shape := ⟨2, ![5000, 96]⟩
abbrev S600000x96 : Shape := ⟨2, ![600000, 96]⟩
abbrev S1x64 : Shape := ⟨2, ![1, 64]⟩
abbrev S50000x64 : Shape := ⟨2, ![50000, 64]⟩
abbrev S5000x64 : Shape := ⟨2, ![5000, 64]⟩
abbrev S50000 : Shape := ⟨1, ![50000]⟩
abbrev S650000 : Shape := ⟨1, ![650000]⟩
abbrev S650000x1 : Shape := ⟨2, ![650000, 1]⟩
abbrev S50000x32 : Shape := ⟨2, ![50000, 32]⟩
abbrev S5000x32 : Shape := ⟨2, ![5000, 32]⟩
abbrev S650000x32 : Shape := ⟨2, ![650000, 32]⟩
abbrev S1x32 : Shape := ⟨2, ![1, 32]⟩

abbrev nBuf : Space → Nat
  | .hbm => 122
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x96, .f32⟩
  | .hbm, ⟨3, _⟩ => ⟨S128x96, .f32⟩
  | .hbm, ⟨4, _⟩ => ⟨S96, .f32⟩
  | .hbm, ⟨5, _⟩ => ⟨S96x64, .f32⟩
  | .hbm, ⟨6, _⟩ => ⟨S96x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x32, .f32⟩
  | .hbm, ⟨11, _⟩ => ⟨S32, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S1x96, .f32⟩
  | .hbm, ⟨30, _⟩ => ⟨S50000x96, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x96, .f32⟩
  | .hbm, ⟨40, _⟩ => ⟨S_, .f32⟩
  | .hbm, ⟨41, _⟩ => ⟨S50000x96, .f32⟩
  | .hbm, ⟨42, _⟩ => ⟨S600000x1, .i32⟩
  | .hbm, ⟨43, _⟩ => ⟨S50000x96, .f32⟩
  | .hbm, ⟨44, _⟩ => ⟨S1x64, .f32⟩
  | .hbm, ⟨45, _⟩ => ⟨S50000x64, .f32⟩
  | .hbm, ⟨46, _⟩ => ⟨S50000, .i32⟩
  | .hbm, ⟨47, _⟩ => ⟨S650000, .i32⟩
  | .hbm, ⟨48, _⟩ => ⟨S650000, .i32⟩
  | .hbm, ⟨49, _⟩ => ⟨S_, .f32⟩
  | .hbm, ⟨50, _⟩ => ⟨S650000, .f32⟩
  | .hbm, ⟨51, _⟩ => ⟨S_, .f32⟩
  | .hbm, ⟨52, _⟩ => ⟨S50000, .f32⟩
  | .hbm, ⟨53, _⟩ => ⟨S650000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S50000, .f32⟩
  | .hbm, ⟨59, _⟩ => ⟨S_, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S_, .i32⟩
  | .hbm, ⟨64, _⟩ => ⟨S650000, .i32⟩
  | .hbm, ⟨65, _⟩ => ⟨S650000, .i1⟩
  | .hbm, ⟨66, _⟩ => ⟨S_, .i32⟩
  | .hbm, ⟨67, _⟩ => ⟨S650000, .i32⟩
  | .hbm, ⟨68, _⟩ => ⟨S650000, .i32⟩
  | .hbm, ⟨69, _⟩ => ⟨S650000, .i32⟩
  | .hbm, ⟨70, _⟩ => ⟨S650000x1, .i32⟩
  | .hbm, ⟨71, _⟩ => ⟨S650000, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000, .f32⟩
  | .hbm, ⟨81, _⟩ => ⟨S650000, .f32⟩
  | .hbm, ⟨82, _⟩ => ⟨S50000x32, .f32⟩
  | .hbm, ⟨83, _⟩ => ⟨S50000x32, .f32⟩
  | .hbm, ⟨84, _⟩ => ⟨S_, .i32⟩
  | .hbm, ⟨85, _⟩ => ⟨S650000, .i32⟩
  | .hbm, ⟨86, _⟩ => ⟨S650000, .i1⟩
  | .hbm, ⟨87, _⟩ => ⟨S_, .i32⟩
  | .hbm, ⟨88, _⟩ => ⟨S650000, .i32⟩
  | .hbm, ⟨89, _⟩ => ⟨S650000, .i32⟩
  | .hbm, ⟨90, _⟩ => ⟨S650000, .i32⟩
  | .hbm, ⟨91, _⟩ => ⟨S650000x1, .i32⟩
  | .hbm, ⟨92, _⟩ => ⟨S650000x32, .f32⟩
  | .hbm, ⟨93, _⟩ => ⟨S650000x1, .f32⟩
  | .hbm, ⟨94, _⟩ => ⟨S650000x32, .f32⟩
  | .hbm, ⟨95, _⟩ => ⟨S650000x32, .f32⟩
  | .hbm, ⟨96, _⟩ => ⟨S_, .f32⟩
  | .hbm, ⟨97, _⟩ => ⟨S50000x32, .f32⟩
  | .hbm, ⟨98, _⟩ => ⟨S650000x1, .i32⟩
  | .hbm, ⟨99, _⟩ => ⟨S50000x32, .f32⟩
  | .hbm, ⟨100, _⟩ => ⟨S1x32, .f32⟩
  | .hbm, ⟨101, _⟩ => ⟨S50000x32, .f32⟩
  | .hbm, ⟨102, _⟩ => ⟨S50000x32, .f32⟩
  | .hbm, ⟨103, _⟩ => ⟨S_, .i32⟩
  | .hbm, ⟨104, _⟩ => ⟨S650000, .i32⟩
  | .hbm, ⟨105, _⟩ => ⟨S650000, .i1⟩
  | .hbm, ⟨106, _⟩ => ⟨S_, .i32⟩
  | .hbm, ⟨107, _⟩ => ⟨S650000, .i32⟩
  | .hbm, ⟨108, _⟩ => ⟨S650000, .i32⟩
  | .hbm, ⟨109, _⟩ => ⟨S650000, .i32⟩
  | .hbm, ⟨110, _⟩ => ⟨S650000x1, .i32⟩
  | .hbm, ⟨111, _⟩ => ⟨S650000x32, .f32⟩
  | .hbm, ⟨112, _⟩ => ⟨S650000x1, .f32⟩
  | .hbm, ⟨113, _⟩ => ⟨S650000x32, .f32⟩
  | .hbm, ⟨114, _⟩ => ⟨S650000x32, .f32⟩
  | .hbm, ⟨115, _⟩ => ⟨S_, .f32⟩
  | .hbm, ⟨116, _⟩ => ⟨S50000x32, .f32⟩
  | .hbm, ⟨117, _⟩ => ⟨S650000x1, .i32⟩
  | .hbm, ⟨118, _⟩ => ⟨S50000x32, .f32⟩
  | .hbm, ⟨119, _⟩ => ⟨S1x32, .f32⟩
  | .hbm, ⟨120, _⟩ => ⟨S50000x32, .f32⟩
  | .hbm, ⟨121, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x96, .f32⟩
  | .local _ .vmem, ⟨5, _⟩ => ⟨S128x96, .f32⟩
  | .local _ .vmem, ⟨6, _⟩ => ⟨S1x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x64, .f32⟩
  | .local _ .vmem, ⟨14, _⟩ => ⟨S96x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x32, .f32⟩
  | .local _ .vmem, ⟨21, _⟩ => ⟨S64x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S_S50000x96 : S_.BroadcastsInDim S50000x96 (![] : Fin 0 → Fin S50000x96.rank)
  shapeCasts_S64_S1x64 : S64.ShapeCasts S1x64
  shapeCasts_S5000x96_S5000x96 : S5000x96.ShapeCasts S5000x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x96_S5000x96_1_0_0_1_n_n_wf : DotDims.WF S5000x128 S128x96 S5000x96 [1] [0] [0] [1] [] []
  gather_S50000x96_S600000x1_S600000x96_1_0_n_n_0_1_196_wf : GatherDims.WF S50000x96 S600000x1 S600000x96 [1] [0] [] [0] [] 1 ![1, 96]
  scatter_S50000x96_S600000x1_S600000x96_1_0_0_1_wf : ScatterDims.WF S50000x96 S600000x1 S600000x96 [1] [0] [0] 1
  dot_S5000x96_S96x64_S5000x64_1_0_0_1_n_n_wf : DotDims.WF S5000x96 S96x64 S5000x64 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x64_S64x32_S5000x32_1_0_0_1_n_n_wf : DotDims.WF S5000x64 S64x32 S5000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S128x96.size a
  hwx0_2 : ∀ i : grid0.Coords, EltTy.bits .f32 = 32 ∨ (Rect.block (s := S128x96) S128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .f32 = 32 ∨ (Rect.block (s := S96x64) S96x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x64.size a ≤ S96x64.size a
  hwx1_3 : ∀ i : grid1.Coords, EltTy.bits .f32 = 32 ∨ (Rect.block (s := S96x64) S96x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S50000x32.size a
  hwx2_4 : ∀ i : grid2.Coords, EltTy.bits .f32 = 32 ∨ (Rect.block (s := S50000x32) S5000x32.size (cc2_transform_4 i) (hinb2_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S600000x1_S600000x96_1_0_n_n_0_1_196 : GatherDims S50000x96 S600000x1 S600000x96 where
  offsetDims := [1]
  collapsedSliceDims := [0]
  operandBatchingDims := []
  startIndicesBatchingDims := []
  startIndexMap := [0]
  indexVectorDim := 1
  sliceSizes := ![1, 96]
  wf := gather_S50000x96_S600000x1_S600000x96_1_0_n_n_0_1_196_wf
def scatter_S50000x96_S600000x1_S600000x96_1_0_0_1 : ScatterDims S50000x96 S600000x1 S600000x96 where
  updateWindowDims := [1]
  insertedWindowDims := [0]
  scatterDimsToOperandDims := [0]
  indexVectorDim := 1
  wf := scatter_S50000x96_S600000x1_S600000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54_0) S5000x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54_1) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x96 : Shape := ⟨2, ![50000, 96]⟩
abbrev S1x96 : Shape := ⟨2, ![1, 96]⟩
abbrev S600000x96 : Shape := ⟨2, ![600000, 96]⟩
abbrev S50000x64 : Shape := ⟨2, ![50000, 64]⟩
abbrev S1x64 : Shape := ⟨2, ![1, 64]⟩
abbrev S50000 : Shape := ⟨1, ![50000]⟩
abbrev S650000 : Shape := ⟨1, ![650000]⟩
abbrev S650000x1 : Shape := ⟨2, ![650000, 1]⟩
abbrev S50000x32 : Shape := ⟨2, ![50000, 32]⟩
abbrev S650000x32 : Shape := ⟨2, ![650000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x600000, .i32⟩
  | 2 => ⟨S128x96, .f32⟩
  | 3 => ⟨S128x96, .f32⟩
  | 4 => ⟨S96, .f32⟩
  | 5 => ⟨S96x64, .f32⟩
  | 6 => ⟨S96x64, .f32⟩
  | 7 => ⟨S64, .f32⟩
  | 8 => ⟨S64x32, .f32⟩
  | 9 => ⟨S32, .f32⟩
  | 10 => ⟨S64x32, .f32⟩
  | 11 => ⟨S32, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S50000x96, .f32⟩
  | 30 => ⟨S50000x96, .f32⟩
  | 31 => ⟨S50000x96, .f32⟩
  | 32 => ⟨S1x96, .f32⟩
  | 33 => ⟨S50000x96, .f32⟩
  | 34 => ⟨S50000x96, .f32⟩
  | 35 => ⟨S_, .f32⟩
  | 36 => ⟨S50000x96, .f32⟩
  | 37 => ⟨S50000x96, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x96, .f32⟩
  | 47 => ⟨S_, .f32⟩
  | 48 => ⟨S50000x96, .f32⟩
  | 49 => ⟨S600000x1, .i32⟩
  | 50 => ⟨S50000x96, .f32⟩
  | 51 => ⟨S50000x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000, .i32⟩
  | 61 => ⟨S650000, .i32⟩
  | 62 => ⟨S650000, .i32⟩
  | 63 => ⟨S_, .f32⟩
  | 64 => ⟨S650000, .f32⟩
  | 65 => ⟨S_, .f32⟩
  | 66 => ⟨S50000, .f32⟩
  | 67 => ⟨S650000x1, .i32⟩
  | 68 => ⟨S50000, .f32⟩
  | 69 => ⟨S_, .f32⟩
  | 70 => ⟨S50000, .f32⟩
  | 71 => ⟨S50000, .i1⟩
  | 72 => ⟨S50000, .f32⟩
  | 73 => ⟨S_, .f32⟩
  | 74 => ⟨S_, .f32⟩
  | 75 => ⟨S50000, .f32⟩
  | 76 => ⟨S50000, .f32⟩
  | 77 => ⟨S_, .i32⟩
  | 78 => ⟨S650000, .i32⟩
  | 79 => ⟨S650000, .i1⟩
  | 80 => ⟨S_, .i32⟩
  | 81 => ⟨S650000, .i32⟩
  | 82 => ⟨S650000, .i32⟩
  | 83 => ⟨S650000, .i32⟩
  | 84 => ⟨S650000x1, .i32⟩
  | 85 => ⟨S650000, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .f32⟩
  | 95 => ⟨S650000, .f32⟩
  | 96 => ⟨S50000x32, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000x32, .f32⟩
  | 106 => ⟨S650000x1, .f32⟩
  | 107 => ⟨S650000x32, .f32⟩
  | 108 => ⟨S650000x32, .f32⟩
  | 109 => ⟨S_, .f32⟩
  | 110 => ⟨S50000x32, .f32⟩
  | 111 => ⟨S650000x1, .i32⟩
  | 112 => ⟨S50000x32, .f32⟩
  | 113 => ⟨S1x32, .f32⟩
  | 114 => ⟨S50000x32, .f32⟩
  | 115 => ⟨S50000x32, .f32⟩
  | 116 => ⟨S50000x32, .f32⟩
  | 117 => ⟨S_, .i32⟩
  | 118 => ⟨S650000, .i32⟩
  | 119 => ⟨S650000, .i1⟩
  | 120 => ⟨S_, .i32⟩
  | 121 => ⟨S650000, .i32⟩
  | 122 => ⟨S650000, .i32⟩
  | 123 => ⟨S650000, .i32⟩
  | 124 => ⟨S650000x1, .i32⟩
  | 125 => ⟨S650000x32, .f32⟩
  | 126 => ⟨S650000x1, .f32⟩
  | 127 => ⟨S650000x32, .f32⟩
  | _ => ⟨S50000x128, .f32⟩

abbrev hbmTy0_1 (i : Nat) : BufTy := match i % 128 with
  | 0 => ⟨S650000x32, .f32⟩
  | 1 => ⟨S_, .f32⟩
  | 2 => ⟨S50000x32, .f32⟩
  | 3 => ⟨S650000x1, .i32⟩
  | 4 => ⟨S50000x32, .f32⟩
  | 5 => ⟨S1x32, .f32⟩
  | 6 => ⟨S50000x32, .f32⟩
  | 7 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x96_S50000x96_1_0_0_1_n_n_wf : DotDims.WF S50000x128 S128x96 S50000x96 [1] [0] [0] [1] [] []
  gather_S50000x96_S600000x1_S600000x96_1_0_n_n_0_1_196_wf : GatherDims.WF S50000x96 S600000x1 S600000x96 [1] [0] [] [0] [] 1 ![1, 96]
  scatter_S50000x96_S600000x1_S600000x96_1_0_0_1_wf : ScatterDims.WF S50000x96 S600000x1 S600000x96 [1] [0] [0] 1
  dot_S50000x96_S96x64_S50000x64_1_0_0_1_n_n_wf : DotDims.WF S50000x96 S96x64 S50000x64 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x64_S64x32_S50000x32_1_0_0_1_n_n_wf : DotDims.WF S50000x64 S64x32 S50000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S600000x1_S600000x96_1_0_n_n_0_1_196 : GatherDims S50000x96 S600000x1 S600000x96 where
  offsetDims := [1]
  collapsedSliceDims := [0]
  operandBatchingDims := []
  startIndicesBatchingDims := []
  startIndexMap := [0]
  indexVectorDim := 1
  sliceSizes := ![1, 96]
  wf := gather_S50000x96_S600000x1_S600000x96_1_0_n_n_0_1_196_wf
def scatter_S50000x96_S600000x1_S600000x96_1_0_0_1 : ScatterDims S50000x96 S600000x1 S600000x96 where
  updateWindowDims := [1]
  insertedWindowDims := [0]
  scatterDimsToOperandDims := [0]
  indexVectorDim := 1
  wf := scatter_S50000x96_S600000x1_S600000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«182108_j64690797412362_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Dense.lean ====
/-
  ONE DENSE LAYER OF THE GRAPH NETWORK, READ AT AN ENTRY. Every layer of this network applies the same arithmetic to
  an m × k matrix A of aggregated neighbour features, an m × k matrix X of the nodes' own features, two k × n weight
  matrices and a bias of n entries: entry (a, b) of the layer is

      max( Σ_c A(a, c) · Wr(c, b)  +  Σ_c X(a, c) · Wo(c, b)  +  bias(b) ,  0 ).

  The output head is the plain product Σ_c H(a, c) · W(c, b). Here the two functions are named, and each of the two
  programs' spellings of them is read at an entry: the kernel body's (two matrix products of narrowed operands into
  the zero splat, their sum, a bias row broadcast down the rows, the maximum with the zero splat) and the host's (two
  dot products, their sum, the bias broadcast through a [1, n] row, the maximum with a broadcast zero). At the ideal
  values narrowing to bf16 is the identity and both products are the same sums, so both spellings are this function.
-/
import proofs.«182108_j64690797412362_1_alg».proof.Proof.LibPlainDot
import Idealize.ShloMosaic.Lib.ValueLayout

open scoped BigOperators

noncomputable section

namespace Cert.GraphNet

open Idealize.ShloMosaic Idealize.ShloMosaic.ValueIdx Idealize.ShloMosaic.PlainMatmul

variable {m k n : Nat}

/-- The layer: the rectified sum of the two products and the bias. -/
def layer (A X : FVec Ideal ⟨2, ![m, k]⟩ .f32) (Wr Wo : FVec Ideal ⟨2, ![k, n]⟩ .f32) (bias : Fin n → EReal) :
    FVec Ideal ⟨2, ![m, n]⟩ .f32 :=
  fun i => max (((∑ c : Fin k, A (ix2 (i 0) c) * Wr (ix2 c (i 1))) + ∑ c : Fin k, X (ix2 (i 0) c) * Wo (ix2 c (i 1)))
    + bias (i 1)) 0

/-- The head: the plain product. -/
def head (H : FVec Ideal ⟨2, ![m, k]⟩ .f32) (W : FVec Ideal ⟨2, ![k, n]⟩ .f32) : FVec Ideal ⟨2, ![m, n]⟩ .f32 :=
  fun i => ∑ c : Fin k, H (ix2 (i 0) c) * W (ix2 c (i 1))

theorem layer_apply (A X : FVec Ideal ⟨2, ![m, k]⟩ .f32) (Wr Wo : FVec Ideal ⟨2, ![k, n]⟩ .f32) (bias : Fin n → EReal)
    (a : Fin m) (b : Fin n) :
    layer A X Wr Wo bias (ix2 a b)
      = max (((∑ c : Fin k, A (ix2 a c) * Wr (ix2 c b)) + ∑ c : Fin k, X (ix2 a c) * Wo (ix2 c b)) + bias b) 0 := rfl

theorem head_apply (H : FVec Ideal ⟨2, ![m, k]⟩ .f32) (W : FVec Ideal ⟨2, ![k, n]⟩ .f32) (a : Fin m) (b : Fin n) :
    head H W (ix2 a b) = ∑ c : Fin k, H (ix2 a c) * W (ix2 c b) := rfl

/-- The kernel body's spelling of the layer on one block of rows, at an entry: the two products of the narrowed
    blocks by the narrowed weights into the zero splat, added; the bias row broadcast down the rows, added; the
    maximum with the splat of the scalar zero. -/
theorem body_layer_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (hA : (⟨2, ![m, k]⟩ : Shape).ShapeCasts ⟨2, ![m, k]⟩) (hb : (⟨2, ![1, n]⟩ : Shape).ShapeCasts ⟨2, ![1, n]⟩)
    (hbc : (⟨2, ![1, n]⟩ : Shape).Broadcasts ⟨2, ![m, n]⟩) (h16 : FTy.bf16.bits < FTy.f32.bits)
    (A X : FVec Ideal ⟨2, ![m, k]⟩ .f32) (Wr Wo : FVec Ideal ⟨2, ![k, n]⟩ .f32) (brow : FVec Ideal ⟨2, ![1, n]⟩ .f32)
    (a : Fin m) (b : Fin n) :
    maximumf
        (addf
          (addf (matmul d none (truncf .bf16 (shapeCast ⟨2, ![m, k]⟩ A hA) h16) (truncf .bf16 Wr h16) (constant ⟨2, ![m, n]⟩ .f32 0x00000000#32))
                (matmul d none (truncf .bf16 X h16) (truncf .bf16 Wo h16) (constant ⟨2, ![m, n]⟩ .f32 0x00000000#32)))
          (broadcastTo ⟨2, ![m, n]⟩ (shapeCast ⟨2, ![1, n]⟩ brow hb) hbc))
        (broadcast ⟨2, ![m, n]⟩ (Scalar.ofBits (F := Ideal) .f32 0x00000000#32)) (ix2 a b)
      = layer A X Wr Wo (fun q => brow (ix2 (0 : Fin 1) q)) (ix2 a b) := by
  rw [layer_apply, maximumf_apply, addf_apply, addf_apply, broadcast_apply,
    matmul_zero_apply d w hd, matmul_zero_apply d w hd, broadcastTo_1b_ab_apply, shapeCast_self, shapeCast_self]
  show max _ (Ideal.ofBits .f32 0x00000000#32) = _
  rw [Ideal.ofBits_zero_f32]
  rfl

/-- The body of the second layer narrows BOTH row blocks after an identity cast. -/
theorem body_layer_apply' (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (hA : (⟨2, ![m, k]⟩ : Shape).ShapeCasts ⟨2, ![m, k]⟩) (hb : (⟨2, ![1, n]⟩ : Shape).ShapeCasts ⟨2, ![1, n]⟩)
    (hbc : (⟨2, ![1, n]⟩ : Shape).Broadcasts ⟨2, ![m, n]⟩) (h16 : FTy.bf16.bits < FTy.f32.bits)
    (A X : FVec Ideal ⟨2, ![m, k]⟩ .f32) (Wr Wo : FVec Ideal ⟨2, ![k, n]⟩ .f32) (brow : FVec Ideal ⟨2, ![1, n]⟩ .f32)
    (a : Fin m) (b : Fin n) :
    maximumf
        (addf
          (addf (matmul d none (truncf .bf16 (shapeCast ⟨2, ![m, k]⟩ A hA) h16) (truncf .bf16 Wr h16) (constant ⟨2, ![m, n]⟩ .f32 0x00000000#32))
                (matmul d none (truncf .bf16 (shapeCast ⟨2, ![m, k]⟩ X hA) h16) (truncf .bf16 Wo h16) (constant ⟨2, ![m, n]⟩ .f32 0x00000000#32)))
          (broadcastTo ⟨2, ![m, n]⟩ (shapeCast ⟨2, ![1, n]⟩ brow hb) hbc))
        (broadcast ⟨2, ![m, n]⟩ (Scalar.ofBits (F := Ideal) .f32 0x00000000#32)) (ix2 a b)
      = layer A X Wr Wo (fun q => brow (ix2 (0 : Fin 1) q)) (ix2 a b) := by
  rw [shapeCast_self X hA]
  exact body_layer_apply d w hd hA hb hbc h16 A X Wr Wo brow a b

/-- The body of the head: one product of the narrowed block (after an identity cast) by the narrowed weight. -/
theorem body_head_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (hA : (⟨2, ![m, k]⟩ : Shape).ShapeCasts ⟨2, ![m, k]⟩) (h16 : FTy.bf16.bits < FTy.f32.bits)
    (H : FVec Ideal ⟨2, ![m, k]⟩ .f32) (W : FVec Ideal ⟨2, ![k, n]⟩ .f32) (a : Fin m) (b : Fin n) :
    matmul d none (truncf .bf16 (shapeCast ⟨2, ![m, k]⟩ H hA) h16) (truncf .bf16 W h16) (constant ⟨2, ![m, n]⟩ .f32 0x00000000#32) (ix2 a b)
      = head H W (ix2 a b) := by
  rw [head_apply, matmul_zero_apply d w hd, shapeCast_self]
  rfl

/-! ## Row blocks -/

/-- A block of rows of the layer: if the two row blocks read the matrices' rows at `r p`, and the weights and the bias
    are read whole, the block's entry (p, q) is the layer's entry (r p, q). -/
theorem layer_rows {m' : Nat} (r : Fin m' → Fin m) (A' X' : FVec Ideal ⟨2, ![m', k]⟩ .f32) (A X : FVec Ideal ⟨2, ![m, k]⟩ .f32)
    (Wr' Wo' Wr Wo : FVec Ideal ⟨2, ![k, n]⟩ .f32) (bias' bias : Fin n → EReal)
    (hA : ∀ p c, A' (ix2 p c) = A (ix2 (r p) c)) (hX : ∀ p c, X' (ix2 p c) = X (ix2 (r p) c))
    (hWr : ∀ c q, Wr' (ix2 c q) = Wr (ix2 c q)) (hWo : ∀ c q, Wo' (ix2 c q) = Wo (ix2 c q)) (hb : ∀ q, bias' q = bias q)
    (p : Fin m') (q : Fin n) :
    layer A' X' Wr' Wo' bias' (ix2 p q) = layer A X Wr Wo bias (ix2 (r p) q) := by
  rw [layer_apply, layer_apply]
  simp only [hA, hX, hWr, hWo, hb]

/-- A block of rows of the head. -/
theorem head_rows {m' : Nat} (r : Fin m' → Fin m) (H' : FVec Ideal ⟨2, ![m', k]⟩ .f32) (H : FVec Ideal ⟨2, ![m, k]⟩ .f32)
    (W' W : FVec Ideal ⟨2, ![k, n]⟩ .f32) (hH : ∀ p c, H' (ix2 p c) = H (ix2 (r p) c))
    (hW : ∀ c q, W' (ix2 c q) = W (ix2 c q)) (p : Fin m') (q : Fin n) :
    head H' W' (ix2 p q) = head H W (ix2 (r p) q) := by
  rw [head_apply, head_apply]
  simp only [hH, hW]

/-! ## The host's spelling -/

/-- A bias of n entries broadcast through a [1, n] row to [m, n], at entry (a, q): the bias at q. -/
theorem bias_bcast_apply {α : Type} (h1 : (⟨1, ![n]⟩ : Shape).BroadcastsInDim ⟨2, ![1, n]⟩ ![1])
    (h2 : (⟨2, ![1, n]⟩ : Shape).BroadcastsInDim ⟨2, ![m, n]⟩ ![0, 1]) (bias : (⟨1, ![n]⟩ : Shape).Idx → α)
    (a : Fin m) (q : Fin n) :
    broadcastInDim ⟨2, ![m, n]⟩ ![0, 1] h2 (broadcastInDim ⟨2, ![1, n]⟩ ![1] h1 bias) (ix2 a q) = bias (ix1 q) := by
  rw [broadcastInDim_apply ![0, 1] h2 _ (ix2 a q) (ix2 (0 : Fin 1) q) (fun ax => by
        match ax with
        | ⟨0, _⟩ => rfl
        | ⟨1, _⟩ =>
          show q.val = if n = 1 then 0 else q.val
          split
          · have := q.isLt; omega
          · rfl),
      broadcastInDim_apply ![1] h1 bias (ix2 (0 : Fin 1) q) (ix1 q) (fun ax => by
        match ax with
        | ⟨0, _⟩ =>
          show q.val = if n = 1 then 0 else q.val
          split
          · have := q.isLt; omega
          · rfl)]

/-- A scalar broadcast to any shape, at any index: the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun ax => ax.elim0)

/-- The host's spelling of the layer, at an entry: two dot products added, the bias broadcast through a [1, n] row
    added, the maximum with the broadcast scalar zero. -/
theorem host_layer_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A X : FVec Ideal ⟨2, ![m, k]⟩ .f32) (Wr Wo : FVec Ideal ⟨2, ![k, n]⟩ .f32) (bias : FVec Ideal ⟨1, ![n]⟩ .f32)
    (a : Fin m) (b : Fin n) :
    maximumf
        (addf (addf (Host.dotGeneral d none A Wr) (Host.dotGeneral d none X Wo))
          (broadcastInDim ⟨2, ![m, n]⟩ ![0, 1] h2 (broadcastInDim ⟨2, ![1, n]⟩ ![1] h1 bias)))
        (broadcastInDim ⟨2, ![m, n]⟩ ![] h0 (constant (F := Ideal) ⟨0, ![]⟩ .f32 0x00000000#32)) (ix2 a b)
      = layer A X Wr Wo (fun q => bias (ix1 q)) (ix2 a b) := by
  rw [layer_apply, maximumf_apply, addf_apply, addf_apply, bias_bcast_apply, scalar_bcast_apply, constant_apply,
    Ideal.ofBits_zero_f32]
  simp only [Host.dotGeneral]
  rw [dotGeneral_apply d w hd, dotGeneral_apply d w hd]

/-- The host's spelling of the head, at an entry: one dot product. -/
theorem host_head_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (H : FVec Ideal ⟨2, ![m, k]⟩ .f32) (W : FVec Ideal ⟨2, ![k, n]⟩ .f32) (a : Fin m) (b : Fin n) :
    Host.dotGeneral d none H W (ix2 a b) = head H W (ix2 a b) := by
  rw [head_apply]
  simp only [Host.dotGeneral]
  rw [dotGeneral_apply d w hd]

end Cert.GraphNet

end
-- ==== Proof.NetSpec.lean ====
/-
  THE NETWORK AS ONE FUNCTION OF ITS ARGUMENTS. Two graph-convolution layers and an output head over a graph of
  50000 nodes and 600000 edges, row 0 of the edge array the sources and row 1 the destinations:

    agg(h)   = the scatter-add, by destination, of the rows of h gathered by source (a negative source index wrapped);
    h1       = layer(agg(x), x, w1_rel, w1_root, b1),     h2 = layer(agg(h1), h1, w2_rel, w2_root, b2);
    deg      = the number of edges into a node, the self loop every node gets counted;
    dinv     = deg^(-1/2) where deg > 0, else 0;      norm(e) = dinv(src e) · dinv(dst e)   over edges and self loops;
    out(w,b) = the scatter-add, by destination, of (h2 · w)[src e] · norm(e), plus the bias b.

  Both programs compute out(w_mu, b_mu) and out(w_ls, b_ls). The gathers, scatter-adds, the degree and the
  normalisation are the same host operations in both; they are kept as they are printed, never opened. Only the
  dense arithmetic differs in spelling, and it is the functions `layer` and `head`.
-/
import proofs.«182108_j64690797412362_1_alg».proof.Proof.Gen.ReferenceIdeal
import proofs.«182108_j64690797412362_1_alg».proof.Proof.Dense

noncomputable section

namespace Cert.GraphNet

open Idealize.ShloMosaic Idealize.ShloMosaic.ValueIdx Cert.ReferenceIdeal Cert.ReferenceIdeal.Gen

/-- The edges' sources: row 0 of the edge array. -/
def src (e : IVec S2x600000 32) : IVec S600000 32 :=
  shapeCast _ (extractStridedSlice S1x600000 ![0, 0] e slices_S2x600000_S1x600000_0_0) shapeCasts_S1x600000_S600000

/-- The edges' destinations: row 1. -/
def dst (e : IVec S2x600000 32) : IVec S600000 32 :=
  shapeCast _ (extractStridedSlice S1x600000 ![1, 0] e slices_S2x600000_S1x600000_1_0) shapeCasts_S1x600000_S600000

/-- A negative index counted from the end, over the edges. -/
def wrapE (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

/-- The neighbour sum of 128-wide rows. -/
def agg128 (x : FVec Ideal S50000x128 .f32) (e : IVec S2x600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dst e))
    (Host.gather gather_S50000x128_S600000x1_S600000x128_1_0_n_n_0_1_1128 x
      (broadcastInDim S600000x1 ![0] bcast_S600000_S600000x1_0 (wrapE (src e))))

/-- The neighbour sum of 96-wide rows. -/
def agg96 (h : FVec Ideal S50000x96 .f32) (e : IVec S2x600000 32) : FVec Ideal S50000x96 .f32 :=
  Host.scatterAdd (F := Ideal) scatter_S50000x96_S600000x1_S600000x96_1_0_0_1
    (broadcastInDim S50000x96 ![] bcast_S_S50000x96 (constant (F := Ideal) S_ .f32 0x00000000#32))
    (broadcastInDim S600000x1 ![0] bcast_S600000_S600000x1_0 (dst e))
    (Host.gather gather_S50000x96_S600000x1_S600000x96_1_0_n_n_0_1_196 h
      (broadcastInDim S600000x1 ![0] bcast_S600000_S600000x1_0 (wrapE (src e))))

/-- The first layer. -/
def h1 (x : FVec Ideal S50000x128 .f32) (e : IVec S2x600000 32) (w1r w1o : FVec Ideal S128x96 .f32)
    (b1 : FVec Ideal S96 .f32) : FVec Ideal S50000x96 .f32 :=
  layer (agg128 x e) x w1r w1o (fun q => b1 (ix1 q))

/-- The second layer. -/
def h2 (x : FVec Ideal S50000x128 .f32) (e : IVec S2x600000 32) (w1r w1o : FVec Ideal S128x96 .f32)
    (b1 : FVec Ideal S96 .f32) (w2r w2o : FVec Ideal S96x64 .f32) (b2 : FVec Ideal S64 .f32) : FVec Ideal S50000x64 .f32 :=
  layer (agg96 (h1 x e w1r w1o b1) e) (h1 x e w1r w1o b1) w2r w2o (fun q => b2 (ix1 q))

/-- Sources with the self loops appended. -/
def srcL (e : IVec S2x600000 32) : IVec S650000 32 :=
  concatenate S650000 0 [⟨S600000, src e⟩, ⟨S50000, iotaInDim S50000 32 0⟩] concatenates_S600000_S50000_S650000_d0

/-- Destinations with the self loops appended. -/
def dstL (e : IVec S2x600000 32) : IVec S650000 32 :=
  concatenate S650000 0 [⟨S600000, dst e⟩, ⟨S50000, iotaInDim S50000 32 0⟩] concatenates_S600000_S50000_S650000_d0

/-- A negative index counted from the end, over edges and self loops. -/
def wrapL (s : IVec S650000 32) : IVec S650000 32 :=
  select (cmpi .slt s (broadcastInDim S650000 ![] bcast_S_S650000 (constantI S_ 32 0#32)))
    (addi s (broadcastInDim S650000 ![] bcast_S_S650000 (constantI S_ 32 50000#32))) s

/-- The in-degree, self loops counted. -/
def deg (e : IVec S2x600000 32) : FVec Ideal S50000 .f32 :=
  Host.scatterAdd (F := Ideal) scatter_S50000_S650000x1_S650000_n_0_0_1
    (broadcastInDim S50000 ![] bcast_S_S50000 (constant (F := Ideal) S_ .f32 0x00000000#32))
    (broadcastInDim S650000x1 ![0] bcast_S650000_S650000x1_0 (dstL e))
    (broadcastInDim S650000 ![] bcast_S_S650000 (constant (F := Ideal) S_ .f32 0x3F800000#32))

/-- deg^(-1/2) where the degree is positive, else 0. -/
def dinv (e : IVec S2x600000 32) : FVec Ideal S50000 .f32 :=
  select (cmpf .ogt (deg e) (broadcastInDim S50000 ![] bcast_S_S50000 (constant (F := Ideal) S_ .f32 0x00000000#32)))
    (Host.rsqrt (F := Ideal) (deg e))
    (broadcastInDim S50000 ![] bcast_S_S50000 (id (constant (F := Ideal) S_ .f32 0x00000000#32)))

/-- The symmetric normalisation of an edge: dinv at its source times dinv at its destination. -/
def norm (e : IVec S2x600000 32) : FVec Ideal S650000 .f32 :=
  mulf (Host.gather gather_S50000_S650000x1_S650000_n_0_n_n_0_1_1 (dinv e)
          (broadcastInDim S650000x1 ![0] bcast_S650000_S650000x1_0 (wrapL (srcL e))))
       (Host.gather gather_S50000_S650000x1_S650000_n_0_n_n_0_1_1 (dinv e)
          (broadcastInDim S650000x1 ![0] bcast_S650000_S650000x1_0 (wrapL (dstL e))))

/-- One output of the head: the normalised neighbour sum of the projected rows, plus the bias. -/
def out (z : FVec Ideal S50000x32 .f32) (e : IVec S2x600000 32) (bias : FVec Ideal S32 .f32) : FVec Ideal S50000x32 .f32 :=
  addf
    (Host.scatterAdd (F := Ideal) scatter_S50000x32_S650000x1_S650000x32_1_0_0_1
      (broadcastInDim S50000x32 ![] bcast_S_S50000x32 (constant (F := Ideal) S_ .f32 0x00000000#32))
      (broadcastInDim S650000x1 ![0] bcast_S650000_S650000x1_0 (dstL e))
      (mulf
        (Host.gather gather_S50000x32_S650000x1_S650000x32_1_0_n_n_0_1_132 z
          (broadcastInDim S650000x1 ![0] bcast_S650000_S650000x1_0 (wrapL (srcL e))))
        (broadcastInDim S650000x32 ![0, 1] bcast_S650000x1_S650000x32_0_1
          (broadcastInDim S650000x1 ![0] bcast_S650000_S650000x1_0 (norm e)))))
    (broadcastInDim S50000x32 ![0, 1] bcast_S1x32_S50000x32_0_1 (broadcastInDim S1x32 ![1] bcast_S32_S1x32_1 bias))

/-- The network's output for one head weight and bias. -/
def net (x : FVec Ideal S50000x128 .f32) (e : IVec S2x600000 32) (w1r w1o : FVec Ideal S128x96 .f32)
    (b1 : FVec Ideal S96 .f32) (w2r w2o : FVec Ideal S96x64 .f32) (b2 : FVec Ideal S64 .f32)
    (w : FVec Ideal S64x32 .f32) (bias : FVec Ideal S32 .f32) : FVec Ideal S50000x32 .f32 :=
  out (head (h2 x e w1r w1o b1 w2r w2o b2) w) e bias

end Cert.GraphNet

end
-- ==== Proof.Layer1.lean ====
/-
  THE FIRST LAYER'S REGION, AS AN ARRAY. The first pallas_call walks the 50000 nodes in ten blocks of 5000 rows. At
  block t it reads rows 5000·t … 5000·t + 4999 of the aggregated features and of the features, the two whole weight
  matrices and the bias row, and writes the same rows of the result. The body computes the layer on the block; since
  entry (a, b) of the layer only reads row a of the two feature matrices, block t of the result is block t of the
  layer of the WHOLE arrays, and the ten blocks tile the result: after the region the result array is the layer of
  the arrays the region found.
-/
import proofs.«182108_j64690797412362_1_alg».proof.Proof.Gen.KernelIdeal.Frame
import proofs.«182108_j64690797412362_1_alg».proof.Proof.Dense

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, at an entry: the layer of the blocks. -/
theorem pay_apply (x0 x1 : Vec Ideal S5000x128 .f32) (x2 x3 : Vec Ideal S128x96 .f32) (x4 : Vec Ideal S1x96 .f32)
    (p : Fin 5000) (q : Fin 96) :
    k0_pay1 x0 x1 x2 x3 x4 (ix2 p q) = layer x0 x1 x2 x3 (fun q => x4 (ix2 (0 : Fin 1) q)) (ix2 p q) := by
  unfold k0_pay1
  exact body_layer_apply dot_S5000x128_S128x96_S5000x96_1_0_0_1_n_n dot_S5000x128_S128x96_S5000x96_1_0_0_1_n_n.wf rfl
    shapeCasts_S5000x128_S5000x128 shapeCasts_S1x96_S1x96 broadcasts_S1x96_S5000x96 bitsLt_bf16_f32 x0 x1 x2 x3 x4 p q

/-- The printed index maps, decided over the grid: the row-block windows sit at block (t, 0), the whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 5000·t + p of the array. -/
def row (t : Fin cfg0.N) (p : Fin 5000) : Fin 50000 :=
  ⟨t.val * 5000 + p.val, by have := t.isLt; have h : cfg0.N = 10 := N_0; have := p.isLt; omega⟩

/-- The row-block windows read the arrays' rows 5000·t + p; the whole-array windows read the arrays. -/
theorem blk_agg (c : Dev nD) (t : Fin cfg0.N) (p : Fin 5000) (k : Fin 128) :
    iblk0 V c 0 t (ix2 p k) = V c main_v13 (ix2 (row t p) k) := by
  obtain ⟨e0, e1, -⟩ := idx_facts t
  show V c main_v13 (((cfg0.win 0).blk t).view.emb (ix2 p k)) = V c main_v13 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk_x (c : Dev nD) (t : Fin cfg0.N) (p : Fin 5000) (k : Fin 128) :
    iblk0 V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk_wr (c : Dev nD) (t : Fin cfg0.N) (k : Fin 128) (q : Fin 96) :
    iblk0 V c 2 t (ix2 k q) = V c main_arg2 (ix2 k q) := by
  obtain ⟨-, -, -, -, e0, e1, -⟩ := idx_facts t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 96 + 1 * q.val = q.val; omega

theorem blk_wo (c : Dev nD) (t : Fin cfg0.N) (k : Fin 128) (q : Fin 96) :
    iblk0 V c 3 t (ix2 k q) = V c main_arg3 (ix2 k q) := by
  obtain ⟨-, -, -, -, -, -, e0, e1, -⟩ := idx_facts t
  show V c main_arg3 (((cfg0.win 3).blk t).view.emb (ix2 k q)) = V c main_arg3 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 96 + 1 * q.val = q.val; omega

theorem blk_bias (c : Dev nD) (t : Fin cfg0.N) (q : Fin 96) :
    iblk0 V c 4 t (ix2 (0 : Fin 1) q) = V c main_v14 (ix2 (0 : Fin 1) q) := by
  obtain ⟨-, -, -, -, -, -, -, -, e0, e1, -⟩ := idx_facts t
  show V c main_v14 (((cfg0.win 4).blk t).view.emb (ix2 (0 : Fin 1) q)) = V c main_v14 (ix2 (0 : Fin 1) q)
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 96 + 1 * q.val = q.val; omega

/-- Entry (p, q) of the result's block t is entry (5000·t + p, q) of the array. -/
theorem blk_out (t : Fin cfg0.N) (p : Fin 5000) (q : Fin 96) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 96 + 1 * q.val = q.val; omega

/-- WHAT POINT t WRITES BACK is block t of the layer of the arrays the region found. -/
theorem flushed_eq (c : Dev nD) (t : Fin cfg0.N) :
    (dat0 V c).flushed 5 t = ((cfg0.win 5).blk t).view.read (Elt Ideal)
      (layer (V c main_v13) (V c main_arg0) (V c main_arg2) (V c main_arg3) (fun q => V c main_v14 (ix2 (0 : Fin 1) q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x96) hz, View.ld_unit_zero (S := S1x96) hz]
  funext j
  obtain ⟨p, q, rfl⟩ : ∃ (p : Fin 5000) (q : Fin 96), j = ix2 p q := ⟨j 0, j 1, eq_ix2 j⟩
  show k0_pay1 (iblk0 V c 0 t) (iblk0 V c 1 t) (iblk0 V c 2 t) (iblk0 V c 3 t) (iblk0 V c 4 t) (ix2 p q)
      = layer (V c main_v13) (V c main_arg0) (V c main_arg2) (V c main_arg3) (fun q => V c main_v14 (ix2 (0 : Fin 1) q))
          (((cfg0.win 5).blk t).view.emb (ix2 p q))
  rw [blk_out t p q]
  refine (pay_apply _ _ _ _ _ p q).trans ?_
  exact layer_rows (row t) _ _ _ _ _ _ _ _ _ _ (blk_agg V c t) (blk_x V c t) (blk_wr V c t) (blk_wo V c t) (blk_bias V c t) p q

/-- An index of the array is in point t's block iff each coordinate is in the block's range on its axis. -/
theorem mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v15).slice (win0_5.rect t)).set ↔ _
  rw [View.set_slice_whole, Rect.mem_set_unit]
  exact Iff.rfl

/-- The ten blocks tile the array: row r is in block r / 5000. -/
theorem cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 10 := N_0
  let t : Fin cfg0.N := ⟨(i 0).val / 5000, by omega⟩
  obtain ⟨-, -, -, -, -, -, -, -, -, -, e0, e1⟩ := idx_facts t
  have et : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- THE RESULT ARRAY after the region: the layer of the arrays the region found. -/
theorem array_eq (c : Dev nD) :
    (dat0 V c).arrAt 5 cfg0.N
      = layer (V c main_v13) (V c main_arg0) (V c main_arg2) (V c main_arg3) (fun q => V c main_v14 (ix2 (0 : Fin 1) q)) :=
  (dat0 V c).arrAt_eq_of_cover 5 _ (fun t _ => flushed_eq V c t) cover

end Cert.KernelIdeal.Layer1

end
-- ==== Proof.Bound1.lean ====
/-
  THE KERNEL PROGRAM'S BUFFERS UP TO THE FIRST LAYER. The program's main function is three kernel regions among
  stretches of host operations; its buffers are followed from the launch to the return, boundary by boundary. A host
  stretch leaves at each buffer its operation's function of the operands' contents and leaves what it does not write
  as it was; a region leaves its result arrays at what its blocks wrote and everything else as it was. Here: before
  the first region the buffers hold the edges' sources and destinations, the neighbour sum of the features and the
  bias as a row; after it the region's result array is the first layer.
-/
import proofs.«182108_j64690797412362_1_alg».proof.Proof.Gen.KernelIdeal.Frame
import proofs.«182108_j64690797412362_1_alg».proof.Proof.NetSpec
import proofs.«182108_j64690797412362_1_alg».proof.Proof.Layer1
import Idealize.ShloMosaic.Lib.StableHlo.Run
import Idealize.ShloMosaic.Lib.ValueLayout

set_option maxRecDepth 16384

noncomputable section

namespace Cert.KernelIdeal.NetValue

open Idealize.ShloMosaic Idealize.ShloMosaic.TcCoe Idealize.ShloMosaic.ValueIdx Idealize.SL.Sem Idealize.ShloMosaic.StableHlo
open Cert.KernelIdeal Cert.KernelIdeal.Gen Cert.GraphNet

variable (m : (ℓ : Loc nD τ sig) → Buf (Elt Ideal) ℓ) (ρ : Dev nD → PrngReg)

/-! ## Before the first region -/

set_option maxHeartbeats 2000000 in
theorem w1_src (c : Dev nD) : W1 m ρ c (Proc.devRef .tc main_v1) = src (m ((c : Thread nD τ).loc main_arg1)) := by
  show StableHlo.after hostOps0 (W0 m ρ c) (Proc.devRef .tc main_v1) = _
  after_results <;> rfl

set_option maxHeartbeats 2000000 in
theorem w1_dst (c : Dev nD) : W1 m ρ c (Proc.devRef .tc main_v3) = dst (m ((c : Thread nD τ).loc main_arg1)) := by
  show StableHlo.after hostOps0 (W0 m ρ c) (Proc.devRef .tc main_v3) = _
  after_results <;> rfl

set_option maxHeartbeats 2000000 in
theorem w1_agg (c : Dev nD) : W1 m ρ c (Proc.devRef .tc main_v13) = agg128 (m ((c : Thread nD τ).loc main_arg0)) (m ((c : Thread nD τ).loc main_arg1)) := by
  show StableHlo.after hostOps0 (W0 m ρ c) (Proc.devRef .tc main_v13) = _
  after_results <;> rfl

set_option maxHeartbeats 2000000 in
theorem w1_bias (c : Dev nD) : W1 m ρ c (Proc.devRef .tc main_v14) = shapeCast S1x96 (m ((c : Thread nD τ).loc main_arg4)) shapeCasts_S96_S1x96 := by
  show StableHlo.after hostOps0 (W0 m ρ c) (Proc.devRef .tc main_v14) = _
  after_results <;> rfl

set_option maxHeartbeats 2000000 in
theorem w1_arg0 (c : Dev nD) : W1 m ρ c (Proc.devRef .tc main_arg0) = (m ((c : Thread nD τ).loc main_arg0)) := by
  show StableHlo.after hostOps0 (W0 m ρ c) (Proc.devRef .tc main_arg0) = _
  after_results <;> rfl

set_option maxHeartbeats 2000000 in
theorem w1_arg2 (c : Dev nD) : W1 m ρ c (Proc.devRef .tc main_arg2) = (m ((c : Thread nD τ).loc main_arg2)) := by
  show StableHlo.after hostOps0 (W0 m ρ c) (Proc.devRef .tc main_arg2) = _
  after_results <;> rfl

set_option maxHeartbeats 2000000 in
theorem w1_arg3 (c : Dev nD) : W1 m ρ c (Proc.devRef .tc main_arg3) = (m ((c : Thread nD τ).loc main_arg3)) := by
  show StableHlo.after hostOps0 (W0 m ρ c) (Proc.devRef .tc main_arg3) = _
  after_results <;> rfl

set_option maxHeartbeats 2000000 in
theorem w1_arg5 (c : Dev nD) : W1 m ρ c (Proc.devRef .tc main_arg5) = (m ((c : Thread nD τ).loc main_arg5)) := by
  show StableHlo.after hostOps0 (W0 m ρ c) (Proc.devRef .tc main_arg5) = _
  after_results <;> rfl

set_option maxHeartbeats 2000000 in
theorem w1_arg6 (c : Dev nD) : W1 m ρ c (Proc.devRef .tc main_arg6) = (m ((c : Thread nD τ).loc main_arg6)) := by
  show StableHlo.after hostOps0 (W0 m ρ c) (Proc.devRef .tc main_arg6) = _
  after_results <;> rfl

set_option maxHeartbeats 2000000 in
theorem w1_arg7 (c : Dev nD) : W1 m ρ c (Proc.devRef .tc main_arg7) = (m ((c : Thread nD τ).loc main_arg7)) := by
  show StableHlo.after hostOps0 (W0 m ρ c) (Proc.devRef .tc main_arg7) = _
  after_results <;> rfl

set_option maxHeartbeats 2000000 in
theorem w1_arg8 (c : Dev nD) : W1 m ρ c (Proc.devRef .tc main_arg8) = (m ((c : Thread nD τ).loc main_arg8)) := by
  show StableHlo.after hostOps0 (W0 m ρ c) (Proc.devRef .tc main_arg8) = _
  after_results <;> rfl

set_option maxHeartbeats 2000000 in
theorem w1_arg9 (c : Dev nD) : W1 m ρ c (Proc.devRef .tc main_arg9) = (m ((c : Thread nD τ).loc main_arg9)) := by
  show StableHlo.after hostOps0 (W0 m ρ c) (Proc.devRef .tc main_arg9) = _
  after_results <;> rfl

set_option maxHeartbeats 2000000 in
theorem w1_arg10 (c : Dev nD) : W1 m ρ c (Proc.devRef .tc main_arg10) = (m ((c : Thread nD τ).loc main_arg10)) := by
  show StableHlo.after hostOps0 (W0 m ρ c) (Proc.devRef .tc main_arg10) = _
  after_results <;> rfl

set_option maxHeartbeats 2000000 in
theorem w1_arg11 (c : Dev nD) : W1 m ρ c (Proc.devRef .tc main_arg11) = (m ((c : Thread nD τ).loc main_arg11)) := by
  show StableHlo.after hostOps0 (W0 m ρ c) (Proc.devRef .tc main_arg11) = _
  after_results <;> rfl

/-! ## After the first region -/

theorem w2_src (c : Dev nD) : W2 m ρ c (Proc.devRef .tc main_v1) = src (m ((c : Thread nD τ).loc main_arg1)) :=
  (W2_of_ne m ρ c main_v1 (by decide)).trans (w1_src m ρ c)

theorem w2_dst (c : Dev nD) : W2 m ρ c (Proc.devRef .tc main_v3) = dst (m ((c : Thread nD τ).loc main_arg1)) :=
  (W2_of_ne m ρ c main_v3 (by decide)).trans (w1_dst m ρ c)

theorem w2_arg5 (c : Dev nD) : W2 m ρ c (Proc.devRef .tc main_arg5) = (m ((c : Thread nD τ).loc main_arg5)) :=
  (W2_of_ne m ρ c main_arg5 (by decide)).trans (w1_arg5 m ρ c)

theorem w2_arg6 (c : Dev nD) : W2 m ρ c (Proc.devRef .tc main_arg6) = (m ((c : Thread nD τ).loc main_arg6)) :=
  (W2_of_ne m ρ c main_arg6 (by decide)).trans (w1_arg6 m ρ c)

theorem w2_arg7 (c : Dev nD) : W2 m ρ c (Proc.devRef .tc main_arg7) = (m ((c : Thread nD τ).loc main_arg7)) :=
  (W2_of_ne m ρ c main_arg7 (by decide)).trans (w1_arg7 m ρ c)

theorem w2_arg8 (c : Dev nD) : W2 m ρ c (Proc.devRef .tc main_arg8) = (m ((c : Thread nD τ).loc main_arg8)) :=
  (W2_of_ne m ρ c main_arg8 (by decide)).trans (w1_arg8 m ρ c)

theorem w2_arg9 (c : Dev nD) : W2 m ρ c (Proc.devRef .tc main_arg9) = (m ((c : Thread nD τ).loc main_arg9)) :=
  (W2_of_ne m ρ c main_arg9 (by decide)).trans (w1_arg9 m ρ c)

theorem w2_arg10 (c : Dev nD) : W2 m ρ c (Proc.devRef .tc main_arg10) = (m ((c : Thread nD τ).loc main_arg10)) :=
  (W2_of_ne m ρ c main_arg10 (by decide)).trans (w1_arg10 m ρ c)

theorem w2_arg11 (c : Dev nD) : W2 m ρ c (Proc.devRef .tc main_arg11) = (m ((c : Thread nD τ).loc main_arg11)) :=
  (W2_of_ne m ρ c main_arg11 (by decide)).trans (w1_arg11 m ρ c)

/-- The first region's result array is the first layer. -/
theorem w2_h1 (c : Dev nD) : W2 m ρ c (Proc.devRef .tc main_v15)
    = (h1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Layer1.array_eq (V1 m ρ) c).trans ?_)
  show layer (W1 m ρ c (Proc.devRef .tc main_v13)) (W1 m ρ c (Proc.devRef .tc main_arg0)) (W1 m ρ c (Proc.devRef .tc main_arg2)) (W1 m ρ c (Proc.devRef .tc main_arg3))
      (fun q => W1 m ρ c (Proc.devRef .tc main_v14) (ix2 (0 : Fin 1) q)) = _
  rw [w1_agg, w1_arg0, w1_arg2, w1_arg3, w1_bias]
  unfold h1
  refine congrArg _ (funext fun q => ?_)
  exact shapeCast_a_1a_apply _ _ 0 q

end Cert.KernelIdeal.NetValue

end
-- ==== Proof.Layer2.lean ====
/-
  THE SECOND LAYER'S REGION, AS AN ARRAY. The second pallas_call walks the 50000 nodes in ten blocks of 5000 rows. At
  block t it reads rows 5000·t … 5000·t + 4999 of the aggregated features and of the first layer, the two whole weight
  matrices and the bias row, and writes the same rows of the result. The body computes the layer on the block; since
  entry (a, b) of the layer only reads row a of the two feature matrices, block t of the result is block t of the
  layer of the WHOLE arrays, and the ten blocks tile the result: after the region the result array is the layer of
  the arrays the region found.
-/
import proofs.«182108_j64690797412362_1_alg».proof.Proof.Gen.KernelIdeal.Frame
import proofs.«182108_j64690797412362_1_alg».proof.Proof.Dense

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

theorem hz : (![0, 0] : Fin 2 → Nat) = fun _ => 0 := funext fun a => by fin_cases a <;> rfl

/-- The body's payload on a block, at an entry: the layer of the blocks. -/
theorem pay_apply (x0 x1 : Vec Ideal S5000x96 .f32) (x2 x3 : Vec Ideal S96x64 .f32) (x4 : Vec Ideal S1x64 .f32)
    (p : Fin 5000) (q : Fin 64) :
    k1_pay1 x0 x1 x2 x3 x4 (ix2 p q) = layer x0 x1 x2 x3 (fun q => x4 (ix2 (0 : Fin 1) q)) (ix2 p q) := by
  unfold k1_pay1
  exact body_layer_apply' dot_S5000x96_S96x64_S5000x64_1_0_0_1_n_n dot_S5000x96_S96x64_S5000x64_1_0_0_1_n_n.wf rfl
    shapeCasts_S5000x96_S5000x96 shapeCasts_S1x64_S1x64 broadcasts_S1x64_S5000x64 bitsLt_bf16_f32 x0 x1 x2 x3 x4 p q

/-- The printed index maps, decided over the grid: the row-block windows sit at block (t, 0), the whole-array
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000·t + p of the array. -/
def row (t : Fin cfg1.N) (p : Fin 5000) : Fin 50000 :=
  ⟨t.val * 5000 + p.val, by have := t.isLt; have h : cfg1.N = 10 := N_1; have := p.isLt; omega⟩

/-- The row-block windows read the arrays' rows 5000·t + p; the whole-array windows read the arrays. -/
theorem blk_agg (c : Dev nD) (t : Fin cfg1.N) (p : Fin 5000) (k : Fin 96) :
    iblk1 V c 0 t (ix2 p k) = V c main_v25 (ix2 (row t p) k) := by
  obtain ⟨e0, e1, -⟩ := idx_facts t
  show V c main_v25 (((cfg1.win 0).blk t).view.emb (ix2 p k)) = V c main_v25 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 96 + 1 * k.val = k.val; omega

theorem blk_x (c : Dev nD) (t : Fin cfg1.N) (p : Fin 5000) (k : Fin 96) :
    iblk1 V c 1 t (ix2 p k) = V c main_v15 (ix2 (row t p) k) := by
  obtain ⟨-, -, e0, e1, -⟩ := idx_facts t
  show V c main_v15 (((cfg1.win 1).blk t).view.emb (ix2 p k)) = V c main_v15 (ix2 (row t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 96 + 1 * k.val = k.val; omega

theorem blk_wr (c : Dev nD) (t : Fin cfg1.N) (k : Fin 96) (q : Fin 64) :
    iblk1 V c 2 t (ix2 k q) = V c main_arg5 (ix2 k q) := by
  obtain ⟨-, -, -, -, e0, e1, -⟩ := idx_facts t
  show V c main_arg5 (((cfg1.win 2).blk t).view.emb (ix2 k q)) = V c main_arg5 (ix2 k q)
  refine congrArg _ (funext fun a => Fin.ext ?_)
  match a with
  | ⟨0, _⟩ => show win1_2.index t (0 : Fin 2) * 96 + 1 * k.val = k.val; omega
  | ⟨1, _⟩ => show win1_2.index t (1 : Fin 2) * 64 + 1 * q.val = q.val; omega

theorem blk_wo (c : Dev nD) (t : Fin cfg1.N) (k : Fin 96) (q : Fin 64) :
    iblk1 V c 3 t (ix2 k q) = V c main_arg6 (ix2 k q) := by
  obtain ⟨-, -, -, -, -, -, e0, e1, -⟩ := idx_facts t
  show V c main_arg6 (((cfg1.win 3).blk t).view.emb (ix2 k q)) = V c main_arg6 (ix2 k q)
  refine congrArg _ (funext fun a => Fin.ext ?_)
  match a with
  | ⟨0, _⟩ => show win1_3.index t (0 : Fin 2) * 96 + 1 * k.val = k.val; omega
  | ⟨1, _⟩ => show win1_3.index t (1 : Fin 2) * 64 + 1 * q.val = q.val; omega

theorem blk_bias (c : Dev nD) (t : Fin cfg1.N) (q : Fin 64) :
    iblk1 V c 4 t (ix2 (0 : Fin 1) q) = V c main_v26 (ix2 (0 : Fin 1) q) := by
  obtain ⟨-, -, -, -, -, -, -, -, e0, e1, -⟩ := idx_facts t
  show V c main_v26 (((cfg1.win 4).blk t).view.emb (ix2 (0 : Fin 1) q)) = V c main_v26 (ix2 (0 : Fin 1) q)
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 64 + 1 * q.val = q.val; omega

/-- Entry (p, q) of the result's block t is entry (5000·t + p, q) of the array. -/
theorem blk_out (t : Fin cfg1.N) (p : Fin 5000) (q : Fin 64) :
    ((cfg1.win 5).blk t).view.emb (ix2 p q) = ix2 (row t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-- WHAT POINT t WRITES BACK is block t of the layer of the arrays the region found. -/
theorem flushed_eq (c : Dev nD) (t : Fin cfg1.N) :
    (dat1 V c).flushed 5 t = ((cfg1.win 5).blk t).view.read (Elt Ideal)
      (layer (V c main_v25) (V c main_v15) (V c main_arg5) (V c main_arg6) (fun q => V c main_v26 (ix2 (0 : Fin 1) q))) := by
  show (cfg1.win 5).cut (grid1.coords t) ((dat1 V c).after 5 t) = _
  rw [after1_5]
  unfold out1_5
  rw [View.canon_unit_zero hz]
  simp only [View.ld_unit_zero (S := S5000x96) hz, View.ld_unit_zero (S := S96x64) hz, View.ld_unit_zero (S := S1x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
      = layer (V c main_v25) (V c main_v15) (V c main_arg5) (V c main_arg6) (fun q => V c main_v26 (ix2 (0 : Fin 1) q))
          (((cfg1.win 5).blk t).view.emb (ix2 p q))
  rw [blk_out t p q]
  refine (pay_apply _ _ _ _ _ p q).trans ?_
  exact layer_rows (row t) _ _ _ _ _ _ _ _ _ _ (blk_agg V c t) (blk_x V c t) (blk_wr V c t) (blk_wo V c t) (blk_bias V c t) p q

/-- An index of the array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- The ten blocks tile the array: row r is in block r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by omega⟩
  obtain ⟨-, -, -, -, -, -, -, -, -, -, e0, e1⟩ := idx_facts t
  have et : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY after the region: the layer of the arrays the region found. -/
theorem array_eq (c : Dev nD) :
    (dat1 V c).arrAt 5 cfg1.N
      = layer (V c main_v25) (V c main_v15) (V c main_arg5) (V c main_arg6) (fun q => V c main_v26 (ix2 (0 : Fin 1) q)) :=
  (dat1 V c).arrAt_eq_of_cover 5 _ (fun t _ => flushed_eq V c t) cover

end Cert.KernelIdeal.Layer2

end
-- ==== Proof.Bound2.lean ====
/-
  THE KERNEL PROGRAM'S BUFFERS UP TO THE SECOND LAYER. Before the second region the buffers hold the neighbour sum of
  the first layer and the second bias as a row, beside what the first stretch and region left; after it the region's
  result array is the second layer.
-/
import proofs.«182108_j64690797412362_1_alg».proof.Proof.Bound1
import proofs.«182108_j64690797412362_1_alg».proof.Proof.Layer2

set_option maxRecDepth 16384

noncomputable section

namespace Cert.KernelIdeal.NetValue

open Idealize.ShloMosaic Idealize.ShloMosaic.TcCoe Idealize.ShloMosaic.ValueIdx Idealize.SL.Sem Idealize.ShloMosaic.StableHlo
open Cert.KernelIdeal Cert.KernelIdeal.Gen Cert.GraphNet

variable (m : (ℓ : Loc nD τ sig) → Buf (Elt Ideal) ℓ) (ρ : Dev nD → PrngReg)

/-! ## Before the second region -/

set_option maxHeartbeats 2000000 in
/-- The neighbour sum of the first layer. -/
theorem w3_agg (c : Dev nD) : W3 m ρ c (Proc.devRef .tc main_v25)
    = agg96 (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v25) = _
  after_results
  rw [w2_h1, w2_src, w2_dst]
  rfl

set_option maxHeartbeats 2000000 in
/-- The second bias as a row. -/
theorem w3_bias (c : Dev nD) : W3 m ρ c (Proc.devRef .tc main_v26) = shapeCast S1x64 (m ((c : Thread nD τ).loc main_arg7)) shapeCasts_S64_S1x64 := by
  show StableHlo.after hostOps1 (W2 m ρ c) (Proc.devRef .tc main_v26) = _
  after_results
  rw [w2_arg7]
  rfl

set_option maxHeartbeats 2000000 in
theorem w3_h1 (c : Dev nD) : W3 m ρ c (Proc.devRef .tc main_v15) = (h1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v15) = _
  after_results
  exact w2_h1 m ρ c

set_option maxHeartbeats 2000000 in
theorem w3_src (c : Dev nD) : W3 m ρ c (Proc.devRef .tc main_v1) = src (m ((c : Thread nD τ).loc main_arg1)) := by
  show StableHlo.after hostOps1 (W2 m ρ c) (Proc.devRef .tc main_v1) = _
  after_results
  exact w2_src m ρ c

set_option maxHeartbeats 2000000 in
theorem w3_dst (c : Dev nD) : W3 m ρ c (Proc.devRef .tc main_v3) = dst (m ((c : Thread nD τ).loc main_arg1)) := by
  show StableHlo.after hostOps1 (W2 m ρ c) (Proc.devRef .tc main_v3) = _
  after_results
  exact w2_dst m ρ c

set_option maxHeartbeats 2000000 in
theorem w3_arg5 (c : Dev nD) : W3 m ρ c (Proc.devRef .tc main_arg5) = (m ((c : Thread nD τ).loc main_arg5)) := by
  show StableHlo.after hostOps1 (W2 m ρ c) (Proc.devRef .tc main_arg5) = _
  after_results
  exact w2_arg5 m ρ c

set_option maxHeartbeats 2000000 in
theorem w3_arg6 (c : Dev nD) : W3 m ρ c (Proc.devRef .tc main_arg6) = (m ((c : Thread nD τ).loc main_arg6)) := by
  show StableHlo.after hostOps1 (W2 m ρ c) (Proc.devRef .tc main_arg6) = _
  after_results
  exact w2_arg6 m ρ c

set_option maxHeartbeats 2000000 in
theorem w3_arg8 (c : Dev nD) : W3 m ρ c (Proc.devRef .tc main_arg8) = (m ((c : Thread nD τ).loc main_arg8)) := by
  show StableHlo.after hostOps1 (W2 m ρ c) (Proc.devRef .tc main_arg8) = _
  after_results
  exact w2_arg8 m ρ c

set_option maxHeartbeats 2000000 in
theorem w3_arg9 (c : Dev nD) : W3 m ρ c (Proc.devRef .tc main_arg9) = (m ((c : Thread nD τ).loc main_arg9)) := by
  show StableHlo.after hostOps1 (W2 m ρ c) (Proc.devRef .tc main_arg9) = _
  after_results
  exact w2_arg9 m ρ c

set_option maxHeartbeats 2000000 in
theorem w3_arg10 (c : Dev nD) : W3 m ρ c (Proc.devRef .tc main_arg10) = (m ((c : Thread nD τ).loc main_arg10)) := by
  show StableHlo.after hostOps1 (W2 m ρ c) (Proc.devRef .tc main_arg10) = _
  after_results
  exact w2_arg10 m ρ c

set_option maxHeartbeats 2000000 in
theorem w3_arg11 (c : Dev nD) : W3 m ρ c (Proc.devRef .tc main_arg11) = (m ((c : Thread nD τ).loc main_arg11)) := by
  show StableHlo.after hostOps1 (W2 m ρ c) (Proc.devRef .tc main_arg11) = _
  after_results
  exact w2_arg11 m ρ c

/-! ## After the second region -/

theorem w4_src (c : Dev nD) : W4 m ρ c (Proc.devRef .tc main_v1) = src (m ((c : Thread nD τ).loc main_arg1)) :=
  (W4_of_ne m ρ c main_v1 (by decide)).trans (w3_src m ρ c)

theorem w4_dst (c : Dev nD) : W4 m ρ c (Proc.devRef .tc main_v3) = dst (m ((c : Thread nD τ).loc main_arg1)) :=
  (W4_of_ne m ρ c main_v3 (by decide)).trans (w3_dst m ρ c)

theorem w4_arg8 (c : Dev nD) : W4 m ρ c (Proc.devRef .tc main_arg8) = (m ((c : Thread nD τ).loc main_arg8)) :=
  (W4_of_ne m ρ c main_arg8 (by decide)).trans (w3_arg8 m ρ c)

theorem w4_arg9 (c : Dev nD) : W4 m ρ c (Proc.devRef .tc main_arg9) = (m ((c : Thread nD τ).loc main_arg9)) :=
  (W4_of_ne m ρ c main_arg9 (by decide)).trans (w3_arg9 m ρ c)

theorem w4_arg10 (c : Dev nD) : W4 m ρ c (Proc.devRef .tc main_arg10) = (m ((c : Thread nD τ).loc main_arg10)) :=
  (W4_of_ne m ρ c main_arg10 (by decide)).trans (w3_arg10 m ρ c)

theorem w4_arg11 (c : Dev nD) : W4 m ρ c (Proc.devRef .tc main_arg11) = (m ((c : Thread nD τ).loc main_arg11)) :=
  (W4_of_ne m ρ c main_arg11 (by decide)).trans (w3_arg11 m ρ c)

/-- The second region's result array is the second layer. -/
theorem w4_h2 (c : Dev nD) : W4 m ρ c (Proc.devRef .tc main_v27)
    = (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  refine (W4_arr m ρ c 5).trans ((Layer2.array_eq (V3 m ρ) c).trans ?_)
  show layer (W3 m ρ c (Proc.devRef .tc main_v25)) (W3 m ρ c (Proc.devRef .tc main_v15)) (W3 m ρ c (Proc.devRef .tc main_arg5)) (W3 m ρ c (Proc.devRef .tc main_arg6))
      (fun q => W3 m ρ c (Proc.devRef .tc main_v26) (ix2 (0 : Fin 1) q)) = _
  rw [w3_agg, w3_h1, w3_arg5, w3_arg6, w3_bias]
  unfold h2
  refine congrArg _ (funext fun q => ?_)
  exact shapeCast_a_1a_apply _ _ 0 q

end Cert.KernelIdeal.NetValue

end
-- ==== Proof.Head.lean ====
/-
  THE OUTPUT HEAD'S REGION, AS TWO ARRAYS. The third pallas_call walks the 50000 nodes in ten blocks of 5000 rows. At
  block t it reads rows 5000·t … 5000·t + 4999 of the second layer and the two whole head weights, and writes the same
  rows of the two projections. The body computes one matrix product per projection; entry (a, b) of a product only
  reads row a of the second layer, so block t of each result is block t of the product of the WHOLE arrays, and the
  ten blocks tile each result: after the region each result array is the head of the arrays the region found.
-/
import proofs.«182108_j64690797412362_1_alg».proof.Proof.Gen.KernelIdeal.Frame
import proofs.«182108_j64690797412362_1_alg».proof.Proof.Dense

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

theorem hz : (![0, 0] : Fin 2 → Nat) = fun _ => 0 := funext fun a => by fin_cases a <;> rfl

/-- The first projection's payload on a block, at an entry: the head of the blocks. -/
theorem pay_mu_apply (x0 : Vec Ideal S5000x64 .f32) (x1 : Vec Ideal S64x32 .f32) (p : Fin 5000) (q : Fin 32) :
    k2_pay2 x0 x1 (ix2 p q) = head x0 x1 (ix2 p q) := by
  unfold k2_pay2 k2_pay1
  exact body_head_apply dot_S5000x64_S64x32_S5000x32_1_0_0_1_n_n dot_S5000x64_S64x32_S5000x32_1_0_0_1_n_n.wf rfl
    shapeCasts_S5000x64_S5000x64 bitsLt_bf16_f32 x0 x1 p q

/-- The second projection's payload on a block, at an entry. -/
theorem pay_ls_apply (x0 : Vec Ideal S5000x64 .f32) (x2 : Vec Ideal S64x32 .f32) (p : Fin 5000) (q : Fin 32) :
    k2_pay3 x0 x2 (ix2 p q) = head x0 x2 (ix2 p q) := by
  unfold k2_pay3 k2_pay1
  exact body_head_apply dot_S5000x64_S64x32_S5000x32_1_0_0_1_n_n dot_S5000x64_S64x32_S5000x32_1_0_0_1_n_n.wf rfl
    shapeCasts_S5000x64_S5000x64 bitsLt_bf16_f32 x0 x2 p q

/-- The printed index maps, decided over the grid: the row-block windows sit at block (t, 0), the whole-array
    windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of block t is row 5000·t + p of the array. -/
def row (t : Fin cfg2.N) (p : Fin 5000) : Fin 50000 :=
  ⟨t.val * 5000 + p.val, by have := t.isLt; have h : cfg2.N = 10 := N_2; have := p.isLt; omega⟩

/-- The row-block window reads the second layer's rows 5000·t + p; the whole-array windows read the weights. -/
theorem blk_h (c : Dev nD) (t : Fin cfg2.N) (p : Fin 5000) (k : Fin 64) :
    iblk2 V c 0 t (ix2 p k) = V c main_v27 (ix2 (row t p) k) := by
  obtain ⟨e0, e1, -⟩ := idx_facts t
  show V c main_v27 (((cfg2.win 0).blk t).view.emb (ix2 p k)) = V c main_v27 (ix2 (row t p) k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem blk_wmu (c : Dev nD) (t : Fin cfg2.N) (k : Fin 64) (q : Fin 32) :
    iblk2 V c 1 t (ix2 k q) = V c main_arg8 (ix2 k q) := by
  obtain ⟨-, -, e0, e1, -⟩ := idx_facts t
  show V c main_arg8 (((cfg2.win 1).blk t).view.emb (ix2 k q)) = V c main_arg8 (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 32 + 1 * q.val = q.val; omega

theorem blk_wls (c : Dev nD) (t : Fin cfg2.N) (k : Fin 64) (q : Fin 32) :
    iblk2 V c 2 t (ix2 k q) = V c main_arg10 (ix2 k q) := by
  obtain ⟨-, -, -, -, e0, e1, -⟩ := idx_facts t
  show V c main_arg10 (((cfg2.win 2).blk t).view.emb (ix2 k q)) = V c main_arg10 (ix2 k q)
  refine congrArg _ (funext fun a => Fin.ext ?_)
  match a with
  | ⟨0, _⟩ => show win2_2.index t (0 : Fin 2) * 64 + 1 * k.val = k.val; omega
  | ⟨1, _⟩ => show win2_2.index t (1 : Fin 2) * 32 + 1 * q.val = q.val; omega

/-- Entry (p, q) of either result's block t is entry (5000·t + p, q) of the array. -/
theorem blk_out_mu (t : Fin cfg2.N) (p : Fin 5000) (q : Fin 32) :
    ((cfg2.win 3).blk t).view.emb (ix2 p q) = ix2 (row t p) q := by
  obtain ⟨-, -, -, -, -, -, e0, e1, -⟩ := idx_facts t
  refine funext fun a => Fin.ext ?_
  match a with
  | ⟨0, _⟩ => show win2_3.index t (0 : Fin 2) * 5000 + 1 * p.val = t.val * 5000 + p.val; omega
  | ⟨1, _⟩ => show win2_3.index t (1 : Fin 2) * 32 + 1 * q.val = q.val; omega

theorem blk_out_ls (t : Fin cfg2.N) (p : Fin 5000) (q : Fin 32) :
    ((cfg2.win 4).blk t).view.emb (ix2 p q) = ix2 (row t p) q := by
  obtain ⟨-, -, -, -, -, -, -, -, e0, e1⟩ := idx_facts t
  refine funext fun a => Fin.ext ?_
  match a with
  | ⟨0, _⟩ => show win2_4.index t (0 : Fin 2) * 5000 + 1 * p.val = t.val * 5000 + p.val; omega
  | ⟨1, _⟩ => show win2_4.index t (1 : Fin 2) * 32 + 1 * q.val = q.val; omega

/-- WHAT POINT t WRITES BACK to the first projection is block t of the head of the arrays the region found. -/
theorem flushed_mu (c : Dev nD) (t : Fin cfg2.N) :
    (dat2 V c).flushed 3 t = ((cfg2.win 3).blk t).view.read (Elt Ideal) (head (V c main_v27) (V c main_arg8)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x32) hz]
  funext j
  obtain ⟨p, q, rfl⟩ : ∃ (p : Fin 5000) (q : Fin 32), j = ix2 p q := ⟨j 0, j 1, eq_ix2 j⟩
  show k2_pay2 (iblk2 V c 0 t) (iblk2 V c 1 t) (ix2 p q)
      = head (V c main_v27) (V c main_arg8) (((cfg2.win 3).blk t).view.emb (ix2 p q))
  rw [blk_out_mu t p q]
  refine (pay_mu_apply _ _ p q).trans ?_
  exact head_rows (row t) _ _ _ _ (blk_h V c t) (blk_wmu V c t) p q

/-- … and to the second projection. -/
theorem flushed_ls (c : Dev nD) (t : Fin cfg2.N) :
    (dat2 V c).flushed 4 t = ((cfg2.win 4).blk t).view.read (Elt Ideal) (head (V c main_v27) (V c main_arg10)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x32) hz]
  funext j
  obtain ⟨p, q, rfl⟩ : ∃ (p : Fin 5000) (q : Fin 32), j = ix2 p q := ⟨j 0, j 1, eq_ix2 j⟩
  show k2_pay3 (iblk2 V c 0 t) (iblk2 V c 2 t) (ix2 p q)
      = head (V c main_v27) (V c main_arg10) (((cfg2.win 4).blk t).view.emb (ix2 p q))
  rw [blk_out_ls t p q]
  refine (pay_ls_apply _ _ p q).trans ?_
  exact head_rows (row t) _ _ _ _ (blk_h V c t) (blk_wls V c t) p q

/-- An index of a result array is in point t's block iff each coordinate is in the block's range on its axis. -/
theorem mem_blk_mu (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v54_0).slice (win2_3.rect t)).set ↔ _
  rw [View.set_slice_whole, Rect.mem_set_unit]
  exact Iff.rfl

theorem mem_blk_ls (t : Fin cfg2.N) (i : S50000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v54_1).slice (win2_4.rect t)).set ↔ _
  rw [View.set_slice_whole, Rect.mem_set_unit]
  exact Iff.rfl

/-- The ten blocks tile each result: row r is in block r / 5000. -/
theorem cover_mu (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : cfg2.N = 10 := N_2
  let t : Fin cfg2.N := ⟨(i 0).val / 5000, by omega⟩
  obtain ⟨-, -, -, -, -, -, e0, e1, -⟩ := idx_facts t
  have et : t.val = (i 0).val / 5000 := rfl
  refine ⟨t, flush2_3 t, ?_⟩
  rw [mem_blk_mu]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

theorem cover_ls (i : S50000x32.Idx) : ∃ t : Fin cfg2.N, (cfg2.win 4).flush t = true ∧ i ∈ ((cfg2.win 4).blk t).view.set := by
  have hi0 : (i 0).val < 50000 := (i 0).isLt
  have hi1 : (i 1).val < 32 := (i 1).isLt
  have hN : cfg2.N = 10 := N_2
  let t : Fin cfg2.N := ⟨(i 0).val / 5000, by omega⟩
  obtain ⟨-, -, -, -, -, -, -, -, e0, e1⟩ := idx_facts t
  have et : t.val = (i 0).val / 5000 := rfl
  refine ⟨t, flush2_4 t, ?_⟩
  rw [mem_blk_ls]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 32 ≤ (i 1).val ∧ (i 1).val < win2_4.index t (1 : Fin 2) * 32 + 32; omega

/-- THE FIRST PROJECTION after the region: the head of the second layer and the first head weight, as the region found them. -/
theorem array_mu (c : Dev nD) : (dat2 V c).arrAt 3 cfg2.N = head (V c main_v27) (V c main_arg8) :=
  (dat2 V c).arrAt_eq_of_cover 3 _ (fun t _ => flushed_mu V c t) cover_mu

/-- THE SECOND PROJECTION after the region. -/
theorem array_ls (c : Dev nD) : (dat2 V c).arrAt 4 cfg2.N = head (V c main_v27) (V c main_arg10) :=
  (dat2 V c).arrAt_eq_of_cover 4 _ (fun t _ => flushed_ls V c t) cover_ls

end Cert.KernelIdeal.Head

end
-- ==== Proof.Bound3.lean ====
/-
  THE KERNEL PROGRAM'S BUFFERS UP TO THE TWO PROJECTIONS. Between the second and the third region three stretches of host
  operations run: the first appends the self loops to the edges and counts the degrees, the second takes deg^(-1/2)
  where the degree is positive, the third forms every edge's normalisation. After the third region its two result
  arrays are the two projections of the second layer.
-/
import proofs.«182108_j64690797412362_1_alg».proof.Proof.Bound2
import proofs.«182108_j64690797412362_1_alg».proof.Proof.Head

set_option maxRecDepth 16384

noncomputable section

namespace Cert.KernelIdeal.NetValue

open Idealize.ShloMosaic Idealize.ShloMosaic.TcCoe Idealize.ShloMosaic.ValueIdx Idealize.SL.Sem Idealize.ShloMosaic.StableHlo
open Cert.KernelIdeal Cert.KernelIdeal.Gen Cert.GraphNet

variable (m : (ℓ : Loc nD τ sig) → Buf (Elt Ideal) ℓ) (ρ : Dev nD → PrngReg)

/-! ## The self loops and the degrees -/

set_option maxHeartbeats 2000000 in
/-- The sources with the self loops appended. -/
theorem w5_srcL (c : Dev nD) : W5 m ρ c (Proc.devRef .tc main_v29) = srcL (m ((c : Thread nD τ).loc main_arg1)) := by
  show StableHlo.after hostOps2 (W4 m ρ c) (Proc.devRef .tc main_v29) = _
  after_results
  rw [w4_src]
  rfl

set_option maxHeartbeats 2000000 in
/-- The destinations with the self loops appended. -/
theorem w5_dstL (c : Dev nD) : W5 m ρ c (Proc.devRef .tc main_v30) = dstL (m ((c : Thread nD τ).loc main_arg1)) := by
  show StableHlo.after hostOps2 (W4 m ρ c) (Proc.devRef .tc main_v30) = _
  after_results
  rw [w4_dst]
  rfl

set_option maxHeartbeats 2000000 in
/-- The degrees. -/
theorem w5_deg (c : Dev nD) : W5 m ρ c (Proc.devRef .tc main_v34) = deg (m ((c : Thread nD τ).loc main_arg1)) := by
  show StableHlo.after hostOps2 (W4 m ρ c) (Proc.devRef .tc main_v34) = _
  after_results
  rw [w4_dst]
  rfl

set_option maxHeartbeats 2000000 in
/-- Where the degree is positive. -/
theorem w5_pos (c : Dev nD) : W5 m ρ c (Proc.devRef .tc main_v36)
    = cmpf .ogt (deg (m ((c : Thread nD τ).loc main_arg1))) (broadcastInDim S50000 ![] bcast_S_S50000 (constant (F := Ideal) S_ .f32 0x00000000#32)) := by
  show StableHlo.after hostOps2 (W4 m ρ c) (Proc.devRef .tc main_v36) = _
  after_results
  rw [w4_dst]
  rfl

set_option maxHeartbeats 2000000 in
/-- The degrees' inverse square roots. -/
theorem w5_rsqrt (c : Dev nD) : W5 m ρ c (Proc.devRef .tc main_v37) = Host.rsqrt (F := Ideal) (deg (m ((c : Thread nD τ).loc main_arg1))) := by
  show StableHlo.after hostOps2 (W4 m ρ c) (Proc.devRef .tc main_v37) = _
  after_results
  rw [w4_dst]
  rfl

set_option maxHeartbeats 2000000 in
/-- The scalar zero the second stretch reads. -/
theorem w5_zero (c : Dev nD) : W5 m ρ c (Proc.devRef .tc main_cst_7) = constant (F := Ideal) S_ .f32 0x00000000#32 := by
  show StableHlo.after hostOps2 (W4 m ρ c) (Proc.devRef .tc main_cst_7) = _
  after_results <;> rfl

set_option maxHeartbeats 2000000 in
theorem w5_h2 (c : Dev nD) : W5 m ρ c (Proc.devRef .tc main_v27) = (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  show StableHlo.after hostOps2 (W4 m ρ c) (Proc.devRef .tc main_v27) = _
  after_results
  exact w4_h2 m ρ c

set_option maxHeartbeats 2000000 in
theorem w5_arg8 (c : Dev nD) : W5 m ρ c (Proc.devRef .tc main_arg8) = (m ((c : Thread nD τ).loc main_arg8)) := by
  show StableHlo.after hostOps2 (W4 m ρ c) (Proc.devRef .tc main_arg8) = _
  after_results
  exact w4_arg8 m ρ c

set_option maxHeartbeats 2000000 in
theorem w5_arg9 (c : Dev nD) : W5 m ρ c (Proc.devRef .tc main_arg9) = (m ((c : Thread nD τ).loc main_arg9)) := by
  show StableHlo.after hostOps2 (W4 m ρ c) (Proc.devRef .tc main_arg9) = _
  after_results
  exact w4_arg9 m ρ c

set_option maxHeartbeats 2000000 in
theorem w5_arg10 (c : Dev nD) : W5 m ρ c (Proc.devRef .tc main_arg10) = (m ((c : Thread nD τ).loc main_arg10)) := by
  show StableHlo.after hostOps2 (W4 m ρ c) (Proc.devRef .tc main_arg10) = _
  after_results
  exact w4_arg10 m ρ c

set_option maxHeartbeats 2000000 in
theorem w5_arg11 (c : Dev nD) : W5 m ρ c (Proc.devRef .tc main_arg11) = (m ((c : Thread nD τ).loc main_arg11)) := by
  show StableHlo.after hostOps2 (W4 m ρ c) (Proc.devRef .tc main_arg11) = _
  after_results
  exact w4_arg11 m ρ c

/-! ## deg^(-1/2) where the degree is positive -/

set_option maxHeartbeats 2000000 in
theorem w6_dinv (c : Dev nD) : W6 m ρ c (Proc.devRef .tc main_v38) = dinv (m ((c : Thread nD τ).loc main_arg1)) := by
  have e1 := w5_pos m ρ c
  have e2 := w5_rsqrt m ρ c
  have e3 := w5_zero m ρ c
  show StableHlo.after hostOps2_1 (W5 m ρ c) (Proc.devRef .tc main_v38) = _
  generalize W5 m ρ c = W at e1 e2 e3 ⊢
  after_results_simp
  rw [e1, e2, e3]
  simp only [TRef.ofBuf, TRef.toBuf, cast_eq]
  rfl

set_option maxHeartbeats 2000000 in
theorem w6_srcL (c : Dev nD) : W6 m ρ c (Proc.devRef .tc main_v29) = srcL (m ((c : Thread nD τ).loc main_arg1)) := by
  have e := w5_srcL m ρ c
  show StableHlo.after hostOps2_1 (W5 m ρ c) (Proc.devRef .tc main_v29) = _
  generalize W5 m ρ c = W at e ⊢
  after_results_simp
  exact e

set_option maxHeartbeats 2000000 in
theorem w6_dstL (c : Dev nD) : W6 m ρ c (Proc.devRef .tc main_v30) = dstL (m ((c : Thread nD τ).loc main_arg1)) := by
  have e := w5_dstL m ρ c
  show StableHlo.after hostOps2_1 (W5 m ρ c) (Proc.devRef .tc main_v30) = _
  generalize W5 m ρ c = W at e ⊢
  after_results_simp
  exact e

set_option maxHeartbeats 2000000 in
theorem w6_h2 (c : Dev nD) : W6 m ρ c (Proc.devRef .tc main_v27) = (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  have e := w5_h2 m ρ c
  show StableHlo.after hostOps2_1 (W5 m ρ c) (Proc.devRef .tc main_v27) = _
  generalize W5 m ρ c = W at e ⊢
  after_results_simp
  exact e

set_option maxHeartbeats 2000000 in
theorem w6_arg8 (c : Dev nD) : W6 m ρ c (Proc.devRef .tc main_arg8) = (m ((c : Thread nD τ).loc main_arg8)) := by
  have e := w5_arg8 m ρ c
  show StableHlo.after hostOps2_1 (W5 m ρ c) (Proc.devRef .tc main_arg8) = _
  generalize W5 m ρ c = W at e ⊢
  after_results_simp
  exact e

set_option maxHeartbeats 2000000 in
theorem w6_arg9 (c : Dev nD) : W6 m ρ c (Proc.devRef .tc main_arg9) = (m ((c : Thread nD τ).loc main_arg9)) := by
  have e := w5_arg9 m ρ c
  show StableHlo.after hostOps2_1 (W5 m ρ c) (Proc.devRef .tc main_arg9) = _
  generalize W5 m ρ c = W at e ⊢
  after_results_simp
  exact e

set_option maxHeartbeats 2000000 in
theorem w6_arg10 (c : Dev nD) : W6 m ρ c (Proc.devRef .tc main_arg10) = (m ((c : Thread nD τ).loc main_arg10)) := by
  have e := w5_arg10 m ρ c
  show StableHlo.after hostOps2_1 (W5 m ρ c) (Proc.devRef .tc main_arg10) = _
  generalize W5 m ρ c = W at e ⊢
  after_results_simp
  exact e

set_option maxHeartbeats 2000000 in
theorem w6_arg11 (c : Dev nD) : W6 m ρ c (Proc.devRef .tc main_arg11) = (m ((c : Thread nD τ).loc main_arg11)) := by
  have e := w5_arg11 m ρ c
  show StableHlo.after hostOps2_1 (W5 m ρ c) (Proc.devRef .tc main_arg11) = _
  generalize W5 m ρ c = W at e ⊢
  after_results_simp
  exact e

/-! ## Before the third region: the normalisation of every edge -/

set_option maxHeartbeats 2000000 in
theorem w7_norm (c : Dev nD) : W7 m ρ c (Proc.devRef .tc main_v53) = norm (m ((c : Thread nD τ).loc main_arg1)) := by
  have e1 := w6_dinv m ρ c
  have e2 := w6_srcL m ρ c
  have e3 := w6_dstL m ρ c
  show StableHlo.after hostOps2_2 (W6 m ρ c) (Proc.devRef .tc main_v53) = _
  generalize W6 m ρ c = W at e1 e2 e3 ⊢
  after_results_simp
  rw [e1, e2, e3]
  rfl

set_option maxHeartbeats 2000000 in
theorem w7_srcL (c : Dev nD) : W7 m ρ c (Proc.devRef .tc main_v29) = srcL (m ((c : Thread nD τ).loc main_arg1)) := by
  have e := w6_srcL m ρ c
  show StableHlo.after hostOps2_2 (W6 m ρ c) (Proc.devRef .tc main_v29) = _
  generalize W6 m ρ c = W at e ⊢
  after_results_simp
  exact e

set_option maxHeartbeats 2000000 in
theorem w7_dstL (c : Dev nD) : W7 m ρ c (Proc.devRef .tc main_v30) = dstL (m ((c : Thread nD τ).loc main_arg1)) := by
  have e := w6_dstL m ρ c
  show StableHlo.after hostOps2_2 (W6 m ρ c) (Proc.devRef .tc main_v30) = _
  generalize W6 m ρ c = W at e ⊢
  after_results_simp
  exact e

set_option maxHeartbeats 2000000 in
theorem w7_h2 (c : Dev nD) : W7 m ρ c (Proc.devRef .tc main_v27) = (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  have e := w6_h2 m ρ c
  show StableHlo.after hostOps2_2 (W6 m ρ c) (Proc.devRef .tc main_v27) = _
  generalize W6 m ρ c = W at e ⊢
  after_results_simp
  exact e

set_option maxHeartbeats 2000000 in
theorem w7_arg8 (c : Dev nD) : W7 m ρ c (Proc.devRef .tc main_arg8) = (m ((c : Thread nD τ).loc main_arg8)) := by
  have e := w6_arg8 m ρ c
  show StableHlo.after hostOps2_2 (W6 m ρ c) (Proc.devRef .tc main_arg8) = _
  generalize W6 m ρ c = W at e ⊢
  after_results_simp
  exact e

set_option maxHeartbeats 2000000 in
theorem w7_arg9 (c : Dev nD) : W7 m ρ c (Proc.devRef .tc main_arg9) = (m ((c : Thread nD τ).loc main_arg9)) := by
  have e := w6_arg9 m ρ c
  show StableHlo.after hostOps2_2 (W6 m ρ c) (Proc.devRef .tc main_arg9) = _
  generalize W6 m ρ c = W at e ⊢
  after_results_simp
  exact e

set_option maxHeartbeats 2000000 in
theorem w7_arg10 (c : Dev nD) : W7 m ρ c (Proc.devRef .tc main_arg10) = (m ((c : Thread nD τ).loc main_arg10)) := by
  have e := w6_arg10 m ρ c
  show StableHlo.after hostOps2_2 (W6 m ρ c) (Proc.devRef .tc main_arg10) = _
  generalize W6 m ρ c = W at e ⊢
  after_results_simp
  exact e

set_option maxHeartbeats 2000000 in
theorem w7_arg11 (c : Dev nD) : W7 m ρ c (Proc.devRef .tc main_arg11) = (m ((c : Thread nD τ).loc main_arg11)) := by
  have e := w6_arg11 m ρ c
  show StableHlo.after hostOps2_2 (W6 m ρ c) (Proc.devRef .tc main_arg11) = _
  generalize W6 m ρ c = W at e ⊢
  after_results_simp
  exact e

/-! ## After the third region -/

theorem w8_srcL (c : Dev nD) : W8 m ρ c (Proc.devRef .tc main_v29) = srcL (m ((c : Thread nD τ).loc main_arg1)) :=
  (W8_of_ne m ρ c main_v29 (by decide)).trans (w7_srcL m ρ c)

theorem w8_dstL (c : Dev nD) : W8 m ρ c (Proc.devRef .tc main_v30) = dstL (m ((c : Thread nD τ).loc main_arg1)) :=
  (W8_of_ne m ρ c main_v30 (by decide)).trans (w7_dstL m ρ c)

theorem w8_norm (c : Dev nD) : W8 m ρ c (Proc.devRef .tc main_v53) = norm (m ((c : Thread nD τ).loc main_arg1)) :=
  (W8_of_ne m ρ c main_v53 (by decide)).trans (w7_norm m ρ c)

theorem w8_arg9 (c : Dev nD) : W8 m ρ c (Proc.devRef .tc main_arg9) = (m ((c : Thread nD τ).loc main_arg9)) :=
  (W8_of_ne m ρ c main_arg9 (by decide)).trans (w7_arg9 m ρ c)

theorem w8_arg11 (c : Dev nD) : W8 m ρ c (Proc.devRef .tc main_arg11) = (m ((c : Thread nD τ).loc main_arg11)) :=
  (W8_of_ne m ρ c main_arg11 (by decide)).trans (w7_arg11 m ρ c)

/-- The third region's first result array is the first projection of the second layer. -/
theorem w8_mu (c : Dev nD) : W8 m ρ c (Proc.devRef .tc main_v54_0)
    = head (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) (m ((c : Thread nD τ).loc main_arg8)) := by
  refine (W8_arr m ρ c 3).trans ((Head.array_mu (V7 m ρ) c).trans ?_)
  show head (W7 m ρ c (Proc.devRef .tc main_v27)) (W7 m ρ c (Proc.devRef .tc main_arg8)) = _
  rw [w7_h2, w7_arg8]

/-- … and its second the second projection. -/
theorem w8_ls (c : Dev nD) : W8 m ρ c (Proc.devRef .tc main_v54_1)
    = head (h2 (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) (m ((c : Thread nD τ).loc main_arg10)) := by
  refine (W8_arr m ρ c 4).trans ((Head.array_ls (V7 m ρ) c).trans ?_)
  show head (W7 m ρ c (Proc.devRef .tc main_v27)) (W7 m ρ c (Proc.devRef .tc main_arg10)) = _
  rw [w7_h2, w7_arg10]

end Cert.KernelIdeal.NetValue

end
-- ==== Proof.Bound4.lean ====
/-
  THE KERNEL PROGRAM'S RESULTS. After the third region the last stretch of host operations gathers each projection by
  source, scales every gathered row by its edge's normalisation, adds the rows up by destination and adds the bias:
  each result is the network's output at its head weight and bias.
-/
import proofs.«182108_j64690797412362_1_alg».proof.Proof.Bound3

set_option maxRecDepth 16384

noncomputable section

namespace Cert.KernelIdeal.NetValue

open Idealize.ShloMosaic Idealize.ShloMosaic.TcCoe Idealize.ShloMosaic.ValueIdx Idealize.SL.Sem Idealize.ShloMosaic.StableHlo
open Cert.KernelIdeal Cert.KernelIdeal.Gen Cert.GraphNet

variable (m : (ℓ : Loc nD τ sig) → Buf (Elt Ideal) ℓ) (ρ : Dev nD → PrngReg)

set_option maxHeartbeats 2000000 in
/-- The first result is the network's output at the first head weight and bias. -/
theorem out_mu (c : Dev nD) : W9 m ρ c (Proc.devRef .tc main_v70)
    = net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W8 m ρ c) (Proc.devRef .tc main_v70) = _
  after_results_simp
  rw [w8_mu, w8_srcL, w8_dstL, w8_norm, w8_arg9]
  rfl

set_option maxHeartbeats 2000000 in
/-- The second result is the network's output at the second head weight and bias. -/
theorem out_ls (c : Dev nD) : W9 m ρ c (Proc.devRef .tc main_v86)
    = net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg10)) (m ((c : Thread nD τ).loc main_arg11)) := by
  show StableHlo.after hostOps3 (W8 m ρ c) (Proc.devRef .tc main_v86) = _
  after_results_simp
  rw [w8_ls, w8_srcL, w8_dstL, w8_norm, w8_arg11]
  rfl

end Cert.KernelIdeal.NetValue

end
-- ==== Proof.RefSide.lean ====
/-
  THE REFERENCE COMPUTES THE NETWORK. The reference's run ends with each result at the composed term of its host
  operations. In that term the dense arithmetic is spelt with dot products, sums, a bias broadcast through a row and a
  maximum with a broadcast zero: entry by entry that is the function `layer` (twice) and, for the output head, the
  function `head`. Everything else in the term — the gathers and scatter-adds over the edges, the degree, the
  normalisation — is, operation for operation, the text of `net`.
-/
import proofs.«182108_j64690797412362_1_alg».proof.Proof.RefRun
import proofs.«182108_j64690797412362_1_alg».proof.Proof.NetSpec

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ValueP Cert.GraphNet

/-- The host's first layer is the function `layer`. -/
theorem host_layer1 (A X : FVec Ideal S50000x128 .f32) (Wr Wo : FVec Ideal S128x96 .f32) (b : FVec Ideal S96 .f32) :
    maximumf
        (addf (addf (Host.dotGeneral dot_S50000x128_S128x96_S50000x96_1_0_0_1_n_n none A Wr)
                    (Host.dotGeneral dot_S50000x128_S128x96_S50000x96_1_0_0_1_n_n none X Wo))
          (broadcastInDim S50000x96 ![0, 1] bcast_S1x96_S50000x96_0_1 (broadcastInDim S1x96 ![1] bcast_S96_S1x96_1 b)))
        (broadcastInDim S50000x96 ![] bcast_S_S50000x96 (constant (F := Ideal) S_ .f32 0x00000000#32))
      = layer A X Wr Wo (fun q => b (ix1 q)) := by
  funext i
  obtain ⟨a, q, rfl⟩ : ∃ (a : Fin 50000) (q : Fin 96), i = ix2 a q := ⟨i 0, i 1, eq_ix2 i⟩
  exact host_layer_apply dot_S50000x128_S128x96_S50000x96_1_0_0_1_n_n dot_S50000x128_S128x96_S50000x96_1_0_0_1_n_n.wf rfl
    bcast_S96_S1x96_1 bcast_S1x96_S50000x96_0_1 bcast_S_S50000x96 A X Wr Wo b a q

/-- The host's second layer is the function `layer`. -/
theorem host_layer2 (A X : FVec Ideal S50000x96 .f32) (Wr Wo : FVec Ideal S96x64 .f32) (b : FVec Ideal S64 .f32) :
    maximumf
        (addf (addf (Host.dotGeneral dot_S50000x96_S96x64_S50000x64_1_0_0_1_n_n none A Wr)
                    (Host.dotGeneral dot_S50000x96_S96x64_S50000x64_1_0_0_1_n_n none X Wo))
          (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = layer A X Wr Wo (fun q => b (ix1 q)) := by
  funext i
  obtain ⟨a, q, rfl⟩ : ∃ (a : Fin 50000) (q : Fin 64), i = ix2 a q := ⟨i 0, i 1, eq_ix2 i⟩
  exact host_layer_apply dot_S50000x96_S96x64_S50000x64_1_0_0_1_n_n dot_S50000x96_S96x64_S50000x64_1_0_0_1_n_n.wf rfl
    bcast_S64_S1x64_1 bcast_S1x64_S50000x64_0_1 bcast_S_S50000x64 A X Wr Wo b a q

/-- The host's head is the function `head`. -/
theorem host_head (H : FVec Ideal S50000x64 .f32) (W : FVec Ideal S64x32 .f32) :
    Host.dotGeneral dot_S50000x64_S64x32_S50000x32_1_0_0_1_n_n none H W = head H W := by
  funext i
  obtain ⟨a, q, rfl⟩ : ∃ (a : Fin 50000) (q : Fin 32), i = ix2 a q := ⟨i 0, i 1, eq_ix2 i⟩
  exact host_head_apply dot_S50000x64_S64x32_S50000x32_1_0_0_1_n_n dot_S50000x64_S64x32_S50000x32_1_0_0_1_n_n.wf rfl H W a q

variable (m : (ℓ : Loc nD τ sig) → Buf (Elt Ideal) ℓ)

set_option maxRecDepth 8192 in
/-- The reference's first result is the network's output at the first head weight and bias. -/
theorem res0_eq (c : Dev nD) : res_main_v80 (F := Ideal) m c
    = net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold res_main_v80 net h2 h1
  rw [← host_layer1, ← host_layer2, ← host_head]
  rfl

set_option maxRecDepth 8192 in
/-- The reference's second result is the network's output at the second head weight and bias. -/
theorem res1_eq (c : Dev nD) : res_main_v97 (F := Ideal) m c
    = net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg10)) (m ((c.tc : Thread nD τ).loc main_arg11)) := by
  unfold res_main_v97 net h2 h1
  rw [← host_layer1, ← host_layer2, ← host_head]
  rfl

end Cert.ReferenceIdeal.RefValue

end
-- ==== Proof.lean ====
/-
  THE CERTIFICATE. A two-layer graph convolution with a normalised output head over 50000 nodes and 600000 edges: the
  kernel program runs the dense arithmetic of each layer in a pallas_call over ten blocks of 5000 nodes and leaves the
  gathers and scatter-adds over the edges to the host; the reference runs everything on the host.

  The three frames: the two kernel programs' are the generated frame certificates (three class-A regions among host
  stretches); the reference's is its run with the results dropped. The idealization rewrote nothing, so `preserves` is
  trivial. The value claim: both programs compute the function `net` of the arguments (NetSpec.lean) at both head
  weights — the kernel program by following its buffers from boundary to boundary, each region's array the layer (or
  head) of what the region found because a row of the product only reads that row of the features and the ten blocks
  tile the array (Layer1, Layer2, Head, Bound1–4); the reference because its composed term spells the same dense
  arithmetic with dot products, entry by entry the same sums at the ideal values (RefSide). No law beyond the sums'
  own definition is used, so the precondition is never opened.
-/
import proofs.«182108_j64690797412362_1_alg».proof.Defs
import proofs.«182108_j64690797412362_1_alg».proof.Proof.Gen.Kernel
import proofs.«182108_j64690797412362_1_alg».proof.Proof.Gen.Kernel.Frame
import proofs.«182108_j64690797412362_1_alg».proof.Proof.Gen.KernelIdeal
import proofs.«182108_j64690797412362_1_alg».proof.Proof.Gen.KernelIdeal.Frame
import proofs.«182108_j64690797412362_1_alg».proof.Proof.Gen.ReferenceIdeal
import proofs.«182108_j64690797412362_1_alg».proof.Proof.Gen.Pre_finite_inputs
import proofs.«182108_j64690797412362_1_alg».proof.Proof.KernelRun
import proofs.«182108_j64690797412362_1_alg».proof.Proof.Bound4
import proofs.«182108_j64690797412362_1_alg».proof.Proof.RefSide
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with each result at the network's output of the arguments, which agree. -/
theorem algebraic : Cert.algebraic_KernelIdeal_ReferenceIdeal := by
  intro m ρ m' ρ' _ hagree
  refine ⟨fun c => Cert.GraphNet.net (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.GraphNet.net (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.NetValue.out_mu m ρ c),
        (h c).2.1.trans (Cert.KernelIdeal.NetValue.out_ls m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨a0, a1, a2, a3, a4, a5, a6, a7, a8, a9, -, -⟩ := hagree c
      rw [Cert.ReferenceIdeal.RefValue.res0_eq, a0, a1, a2, a3, a4, a5, a6, a7, a8, a9]
    · obtain ⟨a0, a1, a2, a3, a4, a5, a6, a7, -, -, a10, a11⟩ := hagree c
      rw [Cert.ReferenceIdeal.RefValue.res1_eq, a0, a1, a2, a3, a4, a5, a6, a7, a10, a11]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
